-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S512x1024 : Shape := ⟨2, ![512, 1024]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x1024 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S512x1024 .f32) (main_arg3 : FVec F S512 .f32) (main_arg4 : FVec F S512x1024 .f32) (main_arg5 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S8192x1024 : Shape := ⟨2, ![8192, 1024]⟩
abbrev S512x1024 : Shape := ⟨2, ![512, 1024]⟩
abbrev S512 : Shape := ⟨1, ![512]⟩
abbrev S1024x512 : Shape := ⟨2, ![1024, 512]⟩
abbrev S1x512 : Shape := ⟨2, ![1, 512]⟩
abbrev S8192x512 : Shape := ⟨2, ![8192, 512]⟩
abbrev S2048x1024 : Shape := ⟨2, ![2048, 1024]⟩
abbrev S2048x512 : Shape := ⟨2, ![2048, 512]⟩
abbrev S512x1 : Shape := ⟨2, ![512, 1]⟩
abbrev S512x512 : Shape := ⟨2, ![512, 512]⟩
abbrev S512x2048 : Shape := ⟨2, ![512, 2048]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S512x1024, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S1024x512, .f32⟩
  | .hbm, ⟨8, _⟩ => ⟨S1x512, .f32⟩
  | .hbm, ⟨9, _⟩ => ⟨S8192x512, .bf16⟩
  | .hbm, ⟨10, _⟩ => ⟨S8192x1024, .bf16⟩
  | .hbm, ⟨11, _⟩ => ⟨S1x512, .f32⟩
  | .hbm, ⟨12, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x512, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S512x1024, .f32⟩
  | .local _ .vmem, ⟨7, _⟩ => ⟨S512x1024, .f32⟩
  | .local _ .vmem, ⟨8, _⟩ => ⟨S1024x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x1024, .bf16⟩
  | .local _ .vmem, ⟨13, _⟩ => ⟨S2048x1024, .bf16⟩
  | .local _ .vmem, ⟨14, _⟩ => ⟨S512x1024, .f32⟩
  | .local _ .vmem, ⟨15, _⟩ => ⟨S512x1024, .f32⟩
  | .local _ .vmem, ⟨16, _⟩ => ⟨S512x1, .f32⟩
  | .local _ .vmem, ⟨17, _⟩ => ⟨S512x1, .f32⟩
  | .local _ .vmem, ⟨18, _⟩ => ⟨S512x1024, .f32⟩
  | .local _ .vmem, ⟨19, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_23 : BitVec 32 := 0#32
  let v41 : BitVec 1 := Scalar.cmpi .ne v40 c0_i32_23
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  transposes_S512x1024_S1024x512_1_0 : S512x1024.Transposes [1, 0] S1024x512
  shapeCasts_S512_S1x512 : S512.ShapeCasts S1x512
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  shapeCasts_S2048x512_S2048x512 : S2048x512.ShapeCasts S2048x512
  reduces_S512x2048_S512 : S512x2048.Reduces [1] S512
  shapeCasts_S512_S512x1 : S512.ShapeCasts S512x1
  broadcasts_S512x1_S512x2048 : S512x1.Broadcasts S512x2048
  shapeCasts_S2048x1024_S2048x1024 : S2048x1024.ShapeCasts S2048x1024
  broadcasts_S512x1_S512x1024 : S512x1.Broadcasts S512x1024
  dot_S2048x1024_S1024x512_S2048x512_1_0_0_1_n_n_wf : DotDims.WF S2048x1024 S1024x512 S2048x512 [1] [0] [0] [1] [] []
  dot_S512x1024_S1024x512_S512x512_1_0_0_1_n_n_wf : DotDims.WF S512x1024 S1024x512 S512x512 [1] [0] [0] [1] [] []
  dot_S512x512_S2048x512_S512x2048_1_1_0_0_n_n_wf : DotDims.WF S512x512 S2048x512 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .bf16 = 32 ∨ (Rect.block (s := S8192x512) S2048x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x512.size a
  hwx1_3 : ∀ i : grid1.Coords, EltTy.bits .bf16 = 32 ∨ (Rect.block (s := S8192x512) S2048x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S8192x1024.size a
  hwx1_4 : ∀ i : grid1.Coords, EltTy.bits .bf16 = 32 ∨ (Rect.block (s := S8192x1024) S2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x1024.size a
  hwx1_5 : ∀ i : grid1.Coords, EltTy.bits .f32 = 32 ∨ (Rect.block (s := S8192x1024) S512x1024.size (cc1_transform_5 i) (hinb1_5 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S512x1024 : Shape := ⟨2, ![512, 1024]⟩
abbrev S512 : Shape := ⟨1, ![512]⟩
abbrev S1024x512 : Shape := ⟨2, ![1024, 512]⟩
abbrev S8192x512 : Shape := ⟨2, ![8192, 512]⟩
abbrev S1x512 : Shape := ⟨2, ![1, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S512x1024, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S1024x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S512x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x512_S8192x512_1_0_0_1_n_n_wf : DotDims.WF S8192x1024 S1024x512 S8192x512 [1] [0] [0] [1] [] []
  dot_S8192x512_S512x8192_S8192x8192_1_0_0_1_n_n_wf : DotDims.WF S8192x512 S512x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Base.lean ====
/-
  What both kernel calls' frame proofs share. The program is two pallas_calls: the key projection
  K = X·Wkᵀ + bk over four row tiles of X, and the attention call over a 16 × 4 grid (query tile, key tile) that
  keeps a running row maximum, a running denominator, an unnormalised accumulator and the projected queries in four
  scratch buffers from one key tile to the next and writes its output block only at the last key tile of a query tile.
  Here: a window's block of its array as the call finds it; that an input window's buffer holds that block at every
  point; the two branch conditions of the attention body (first key tile, last key tile) decided over the grid; where
  the attention call's output window is idle; names for the staging and scratch memrefs.
-/
import proofs.«400922_j71734543778413_3_alg».proof.Proof.Gen.Kernel.Launch
import proofs.«400922_j71734543778413_3_alg».proof.Proof.Gen.Kernel.Skeleton
import proofs.«400922_j71734543778413_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffers' contents when a call is entered: a parameter, fixed per call by the run
variable (V : (c : Dev nD) → (b : Ref sig .tc) → Buf (Elt F) ((c : Thread nD τ).loc b))

/-! ## The projection call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of the projection call holds its block of the array whenever the body runs, fetched at that point or
    kept from an earlier one (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of the projection call holds its block of the array whenever the body runs, fetched at that point or
    kept from an earlier one (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of the projection call holds its block of the array whenever the body runs, fetched at that point or
    kept from an earlier one (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The attention call -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of the attention call holds its block of the array whenever the body runs, fetched at that point or
    kept from an earlier one (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of the attention call holds its block of the array whenever the body runs, fetched at that point or
    kept from an earlier one (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of the attention call holds its block of the array whenever the body runs, fetched at that point or
    kept from an earlier one (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of the attention call holds its block of the array whenever the body runs, fetched at that point or
    kept from an earlier one (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of the attention call holds its block of the array whenever the body runs, fetched at that point or
    kept from an earlier one (its block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The attention body's two branches -/

/-- "This is the first key tile of the query tile": the body resets its four scratch buffers. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile of the query tile": the body normalises and stores its output block. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the attention call's windows are idle -/

theorem liveAt0_3 : ∀ t : Fin cfg0.N, cfg0.idle 3 (grid0.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last key tile the output window is idle: nothing is stored into it, -/
theorem idleAt1_5 : ∀ t : Fin cfg1.N, ¬cond1_1 (grid1.coords t) → cfg1.idle 5 (grid1.coords t) = true := by decide +kernel
/-- and it is not written back there; -/
theorem noFlush1_5 : ∀ t : Fin cfg1.N, ¬cond1_1 (grid1.coords t) → (cfg1.win 5).flush t = false := by decide +kernel
/-- at the last key tile it is live. -/
theorem liveAt1_5 : ∀ t : Fin cfg1.N, cond1_1 (grid1.coords t) → cfg1.idle 5 (grid1.coords t) = false := by decide +kernel

/-! ## Names for the memrefs the bodies are called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)

/-- The four scratch buffers of the attention call: the running row maximum, the running denominator, the
    unnormalised accumulator, the projected query tile. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev scQ : Memref sig .tc .vmem S512x512 .bf16 := Memref.whole cc1_scratch3

/-- One staging buffer of each call's output window, through which its contents are stated. -/
abbrev VO0 : View sig .tc .vmem S2048x512 .bf16 := (Memref.whole cc0_stg3_0 : Memref sig .tc .vmem S2048x512 .bf16).view
abbrev VO1 : View sig .tc .vmem S512x1024 .f32 := (Memref.whole cc1_stg5_0 : Memref sig .tc .vmem S512x1024 .f32).view

/-- The projection call's staging buffers, which the attention call never touches, each at some contents. -/
def otherStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the attention call's body may use beside its windows, when nothing is known of the scratch: the other call's
    staging buffers, the four scratch buffers each at some contents, the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM fullShare d) ∗ (∃ d, owns (c : Thread nD τ) scL fullShare d) ∗ (∃ d, owns (c : Thread nD τ) scA fullShare d) ∗ (∃ d, owns (c : Thread nD τ) scQ fullShare d))
          ∗ (∃ r, prngReg c r)) := by
  unfold Pipeline.ΦA; rw [scopedRest1_eq]; simp only [scM, scL, scA, scQ, owns_whole]; try rfl

end Cert.Kernel.Fr

end
-- ==== Proof.K.Run0.lean ====
/-
  The projection body run once: on whole staging memrefs holding a row tile of X, the transposed weight and the bias
  row, with the output tile's buffer at anything, the body loads the three, forms X·Wkᵀ + bk and stores it over the
  whole output buffer. What the output buffer then holds is recorded as the list of stored pieces the run finds.
-/
import proofs.«400922_j71734543778413_3_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the projection body leaves in its output buffer, with the proof that the body runs to a continuation
    holding the three inputs as they were and the output buffer with those pieces written. -/
noncomputable def kernelRun0 (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S2048x512 .bf16) (harg4 : arg4.IsWhole)
    (x0 : Vec F S2048x1024 .f32) (x1 : Vec F S1024x512 .f32) (x2 : Vec F S1x512 .f32) :
    { L3 : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__linear_kernel i arg1 harg1 arg2 harg2 arg3 harg3 arg4 harg4) K } := by
  refine ⟨?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Fr

end
-- ==== Proof.K.Dat0.lean ====
/-
  The projection call's proof data and body obligation: its arrays as the call finds them; after the body at a point
  the three input windows' buffers still at their blocks (a row tile of X, the whole transposed weight, the bias row)
  and the output window's at what the body's store leaves; nothing kept between points.
-/
import proofs.«400922_j71734543778413_3_alg».proof.Proof.K.Run0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the projection body's store leaves in the output tile's buffer, read back over anything. -/
def out0_3 (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S2048x512 .bf16) (harg4 : arg4.IsWhole) (x0 : Vec F S2048x1024 .f32) (x1 : Vec F S1024x512 .f32) (x2 : Vec F S1x512 .f32) : Vec F S2048x512 .bf16 :=
  VO0.read (Elt F) (VO0.writes (Elt F) VO0.junk (kernelRun0 c i arg1 harg1 arg2 harg2 arg3 harg3 arg4 harg4 x0 x1 x2).1)

/-- The store covers the whole output tile. -/
theorem cover0_3 (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S2048x512 .bf16) (harg4 : arg4.IsWhole) (x0 : Vec F S2048x1024 .f32) (x1 : Vec F S1024x512 .f32) (x2 : Vec F S1x512 .f32) (y : S2048x512.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S2048x512.size (by sl_kernel_rfl) y

section Regions
variable (V : (c : Dev nD) → (b : Ref sig .tc) → Buf (Elt F) ((c : Thread nD τ).loc b))

/-- The proof data of the projection call on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1000000 in
/-- The body at any point: the inputs' buffers hold their blocks, so the run applies; the output buffer ends at the
    run's piece read back, which covers it; the invariant and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.K.Run1A.lean ====
/-
  The attention body at the FIRST key tile of a query tile. The four scratch buffers hold anything; the body resets the
  running maximum to the finite stand-in, the denominator and the accumulator to zero, projects the query tile
  (A·Wqᵀ + bq) into its scratch, then does one online-softmax step with this key tile. The output window is idle.
-/
import proofs.«400922_j71734543778413_3_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces this case of the attention body leaves in the buffers it stores into, with the proof that the body
    runs to a continuation holding every input tile as it was and those buffers with the pieces written. -/
noncomputable def kernelRun1_A (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i)
    (x0 : Vec F S512x1024 .f32) (x1 : Vec F S1024x512 .f32) (x2 : Vec F S1x512 .f32) (x3 : Vec F S2048x512 .bf16) (x4 : Vec F S2048x1024 .bf16) :
    Σ' (LS0 : List (View.Piece (Elt F) S512x1 .f32)) (LS1 : List (View.Piece (Elt F) S512x1 .f32)) (LS2 : List (View.Piece (Elt F) S512x1024 .f32)), { LS3 : List (View.Piece (Elt F) S512x512 .bf16) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Fr

end
-- ==== Proof.K.Run1B.lean ====
/-
  The attention body at a MIDDLE key tile. The scratch buffers hold what the previous key tile left; the body does one
  online-softmax step (new maximum, rescale, add this tile's exponentials and its weighted values) and stores the
  maximum, the denominator and the accumulator back. The projected queries are only read. The output window is idle.
-/
import proofs.«400922_j71734543778413_3_alg».proof.Proof.K.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces this case of the attention body leaves in the buffers it stores into, with the proof that the body
    runs to a continuation holding every input tile as it was and those buffers with the pieces written. -/
noncomputable def kernelRun1_B (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i)
    (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    Σ' (LS0 : List (View.Piece (Elt F) S512x1 .f32)) (LS1 : List (View.Piece (Elt F) S512x1 .f32)), { LS2 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; isplitr; · ipureintro; exact harg11.read_unread _
    iexact HS3

end Cert.Kernel.Fr

end
-- ==== Proof.K.Run1C.lean ====
/-
  The attention body at the LAST key tile of a query tile: one online-softmax step as at a middle tile, then the
  accumulator times the reciprocal of the denominator is stored over the whole output block.
-/
import proofs.«400922_j71734543778413_3_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces this case of the attention body leaves in the buffers it stores into, with the proof that the body
    runs to a continuation holding every input tile as it was and those buffers with the pieces written. -/
noncomputable def kernelRun1_C (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i)
    (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    Σ' (L5 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg11.read_unread _
    iexact HS3

end Cert.Kernel.Fr

end
-- ==== Proof.K.Dat1.lean ====
/-
  The attention call's proof data and body obligation. Within a query tile the four key tiles are visited in order and
  the body carries, in scratch, the running row maximum m, the running denominator l, the unnormalised accumulator acc
  and the projected query tile q. So what the buffers hold after a point is a recursion on the point: at a first key
  tile the reset-and-step case's contents, afterwards the step case's contents over what the point before left; the
  output tile's buffer is stored only at a last key tile. The call's invariant between points is the scratch buffers
  at exactly those contents; before the first point and after the last it says nothing of them.
-/
import proofs.«400922_j71734543778413_3_alg».proof.Proof.K.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the run's pieces -/

theorem scover1_A_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).1 S512x1.size (by sl_kernel_rfl) y

/-- What case A leaves in the running maximum's scratch: its pieces read back. -/
def sout1_A_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) : Vec F S512x1 .f32 :=
  scM.view.read (Elt F) (scM.view.writes (Elt F) scM.view.junk (kernelRun1_A c i arg2 harg2 arg3 harg3 arg4 harg4 arg5 harg5 arg6 harg6 arg7 harg7 arg8 harg8 arg9 harg9 arg10 harg10 arg11 harg11 hc0 hc1 x0 x1 x2 x3 x4).1)

theorem scover1_A_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.1 S512x1.size (by sl_kernel_rfl) y

/-- What case A leaves in the running denominator's scratch: its pieces read back. -/
def sout1_A_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) : Vec F S512x1 .f32 :=
  scL.view.read (Elt F) (scL.view.writes (Elt F) scL.view.junk (kernelRun1_A c i arg2 harg2 arg3 harg3 arg4 harg4 arg5 harg5 arg6 harg6 arg7 harg7 arg8 harg8 arg9 harg9 arg10 harg10 arg11 harg11 hc0 hc1 x0 x1 x2 x3 x4).2.1)

theorem scover1_A_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) (y : S512x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.2.1 S512x1024.size (by sl_kernel_rfl) y

/-- What case A leaves in the accumulator's scratch: its pieces read back. -/
def sout1_A_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) : Vec F S512x1024 .f32 :=
  scA.view.read (Elt F) (scA.view.writes (Elt F) scA.view.junk (kernelRun1_A c i arg2 harg2 arg3 harg3 arg4 harg4 arg5 harg5 arg6 harg6 arg7 harg7 arg8 harg8 arg9 harg9 arg10 harg10 arg11 harg11 hc0 hc1 x0 x1 x2 x3 x4).2.2.1)

theorem scover1_A_3 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) (y : S512x512.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.2.2.1 S512x512.size (by sl_kernel_rfl) y

/-- What case A leaves in the projected queries's scratch: its pieces read back. -/
def sout1_A_3 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) : Vec F S512x512 .bf16 :=
  scQ.view.read (Elt F) (scQ.view.writes (Elt F) scQ.view.junk (kernelRun1_A c i arg2 harg2 arg3 harg3 arg4 harg4 arg5 harg5 arg6 harg6 arg7 harg7 arg8 harg8 arg9 harg9 arg10 harg10 arg11 harg11 hc0 hc1 x0 x1 x2 x3 x4).2.2.2.1)

theorem scover1_B_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1 S512x1.size (by sl_kernel_rfl) y

/-- What case B leaves in the running maximum's scratch: its pieces read back. -/
def sout1_B_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1 .f32 :=
  scM.view.read (Elt F) (scM.view.writes (Elt F) scM.view.junk (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1)

theorem scover1_B_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S512x1.size (by sl_kernel_rfl) y

/-- What case B leaves in the running denominator's scratch: its pieces read back. -/
def sout1_B_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1 .f32 :=
  scL.view.read (Elt F) (scL.view.writes (Elt F) scL.view.junk (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1)

theorem scover1_B_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S512x1024.size (by sl_kernel_rfl) y

/-- What case B leaves in the accumulator's scratch: its pieces read back. -/
def sout1_B_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1024 .f32 :=
  scA.view.read (Elt F) (scA.view.writes (Elt F) scA.view.junk (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1)

theorem scover1_C_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S512x1.size (by sl_kernel_rfl) y

/-- What case C leaves in the running maximum's scratch: its pieces read back. -/
def sout1_C_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1 .f32 :=
  scM.view.read (Elt F) (scM.view.writes (Elt F) scM.view.junk (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1)

theorem scover1_C_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S512x1.size (by sl_kernel_rfl) y

/-- What case C leaves in the running denominator's scratch: its pieces read back. -/
def sout1_C_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1 .f32 :=
  scL.view.read (Elt F) (scL.view.writes (Elt F) scL.view.junk (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1)

theorem scover1_C_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1 S512x1024.size (by sl_kernel_rfl) y

/-- What case C leaves in the accumulator's scratch: its pieces read back. -/
def sout1_C_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1024 .f32 :=
  scA.view.read (Elt F) (scA.view.writes (Elt F) scA.view.junk (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1)

theorem cover1_C_5 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1 S512x1024.size (by sl_kernel_rfl) y

/-- What the last key tile's case leaves in the output tile's buffer: its piece read back. -/
def out1_C_5 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1024 .f32 :=
  VO1.read (Elt F) (VO1.writes (Elt F) VO1.junk (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1)

section Regions
variable (V : (c : Dev nD) → (b : Ref sig .tc) → Buf (Elt F) ((c : Thread nD τ).loc b))

/-! ## After each point -/

/-- The contents after the body at a point: the output tile's buffer, then m, l, acc, q. -/
abbrev St (F : FTy → Type) [FloatOps F] : Type := Vec F S512x1024 .f32 × Vec F S512x1 .f32 × Vec F S512x1 .f32 × Vec F S512x1024 .f32 × Vec F S512x512 .bf16

/-- After a first key tile (reset, project the queries, one step): nothing in the output buffer yet. -/
def stA (c : Dev nD) (t : Fin cfg1.N) (h0 : t.val % 4 = 0) (h1 : ¬t.val % 4 = 3) : St F :=
  (VO1.read (Elt F) VO1.junk,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) ((hcond1_0 t).mpr h0) (fun h => h1 ((hcond1_1 t).mp h)) (iblk1 V c 0 t) (iblk1 V c 1 t) (iblk1 V c 2 t) (iblk1 V c 3 t) (iblk1 V c 4 t))

/-- After a middle key tile: one step over what the point before left (`p`); the queries are kept. -/
def stB (c : Dev nD) (t : Fin cfg1.N) (h0 : ¬t.val % 4 = 0) (h1 : ¬t.val % 4 = 3) (p : St F) : St F :=
  (VO1.read (Elt F) VO1.junk,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2,
   p.2.2.2.2)

/-- After a last key tile: one step over what the point before left, and the normalised output tile. -/
def stC (c : Dev nD) (t : Fin cfg1.N) (h0 : ¬t.val % 4 = 0) (h1 : t.val % 4 = 3) (p : St F) : St F :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2,
   p.2.2.2.2)

/-- The contents after the body at position `n`, by recursion on the position. -/
def outsAt1 (c : Dev nD) : (n : ℕ) → n < cfg1.N → St F
  | 0, hn => stA V c ⟨0, hn⟩ (Nat.zero_mod _) (by show ¬ 0 % 4 = 3; decide)
  | n + 1, hn =>
    if h0 : (n + 1) % 4 = 0 then
      stA V c ⟨n + 1, hn⟩ h0 (by show ¬ (n + 1) % 4 = 3; omega)
    else if h1 : (n + 1) % 4 = 3 then
      stC V c ⟨n + 1, hn⟩ h0 h1 (outsAt1 c n (Nat.lt_of_succ_lt hn))
    else
      stB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = stA V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- Before the first point nothing is known of the scratch; before any later point the four scratch buffers hold
    what the point before left. The other call's staging buffers and the generator register ride along. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
        ∗ owns (c : Thread nD τ) scM fullShare (outsAt1 V c n hn).2.1 ∗ owns (c : Thread nD τ) scL fullShare (outsAt1 V c n hn).2.2.1
        ∗ owns (c : Thread nD τ) scA fullShare (outsAt1 V c n hn).2.2.2.1 ∗ owns (c : Thread nD τ) scQ fullShare (outsAt1 V c n hn).2.2.2.2)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
        ∗ owns (c : Thread nD τ) scM fullShare (outsAt1 V c n hn).2.1 ∗ owns (c : Thread nD τ) scL fullShare (outsAt1 V c n hn).2.2.1
        ∗ owns (c : Thread nD τ) scA fullShare (outsAt1 V c n hn).2.2.2.1 ∗ owns (c : Thread nD τ) scQ fullShare (outsAt1 V c n hn).2.2.2.2)
      ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
        ∗ owns (c : Thread nD τ) scM fullShare (outsAt1 V c (n - 1) (by omega)).2.1 ∗ owns (c : Thread nD τ) scL fullShare (outsAt1 V c (n - 1) (by omega)).2.2.1
        ∗ owns (c : Thread nD τ) scA fullShare (outsAt1 V c (n - 1) (by omega)).2.2.2.1 ∗ owns (c : Thread nD τ) scQ fullShare (outsAt1 V c (n - 1) (by omega)).2.2.2.2)
      ∗ (∃ r, prngReg c r)) := by
  cases n with
  | zero => exact absurd rfl hz
  | succ n => rfl

/-! ## The proof data -/

/-- The proof data of the attention call on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point, by cases on which key tile of its query tile the point is: the inputs' buffers hold their
    blocks; the invariant hands the body the scratch at what the point before left (at anything before the first
    point) and takes it back at this point's contents, which the run's pieces cover. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold stA sout1_A_0 sout1_A_1 sout1_A_2 sout1_A_3; (try dsimp only)
    by_cases hz : t.val = 0
    · rw [PhiS1_castSucc V c t, PhiS1_zero V c _ _ hz, PhiA1_eq]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [S1 S2 S3 S4 S5 S6 HS0 HS1 HS2 HS3 Hg]
      · isplitr [Hg]
        swap; · iexact Hg
        isplitl [S1]; · iexact S1
        isplitl [S2]; · iexact S2
        isplitl [S3]; · iexact S3
        isplitl [S4]; · iexact S4
        isplitl [S5]; · iexact S5
        isplitl [S6]; · iexact S6
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [S1 S2 S3 S4 S5 S6 HS0 HS1 HS2 HS3 Hg]
      · isplitr [Hg]
        swap; · iexact Hg
        isplitl [S1]; · iexact S1
        isplitl [S2]; · iexact S2
        isplitl [S3]; · iexact S3
        isplitl [S4]; · iexact S4
        isplitl [S5]; · iexact S5
        isplitl [S6]; · iexact S6
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold stC out1_C_5 sout1_C_0 sout1_C_1 sout1_C_2; (try dsimp only)
      rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      isplitl [S1 S2 S3 S4 S5 S6 HS0 HS1 HS2 HS3 Hg]
      · isplitr [Hg]
        swap; · iexact Hg
        isplitl [S1]; · iexact S1
        isplitl [S2]; · iexact S2
        isplitl [S3]; · iexact S3
        isplitl [S4]; · iexact S4
        isplitl [S5]; · iexact S5
        isplitl [S6]; · iexact S6
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _)
        iexact HS3
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold stB sout1_B_0 sout1_B_1 sout1_B_2; (try dsimp only)
      rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      isplitl [S1 S2 S3 S4 S5 S6 HS0 HS1 HS2 HS3 Hg]
      · isplitr [Hg]
        swap; · iexact Hg
        isplitl [S1]; · iexact S1
        isplitl [S2]; · iexact S2
        isplitl [S3]; · iexact S3
        isplitl [S4]; · iexact S4
        isplitl [S5]; · iexact S5
        isplitl [S6]; · iexact S6
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _)
        iexact HS3
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨S1, S2, S3, S4, S5, S6, HS0, HS1, HS2, HS3⟩, Hg⟩
  isplitr [Hg]
  swap; · iexact Hg
  isplitl [S1]; · iexact S1
  isplitl [S2]; · iexact S2
  isplitl [S3]; · iexact S3
  isplitl [S4]; · iexact S4
  isplitl [S5]; · iexact S5
  isplitl [S6]; · iexact S6
  isplitl [HS0]; · iexists _; iexact HS0
  isplitl [HS1]; · iexists _; iexact HS1
  isplitl [HS2]; · iexists _; iexact HS2
  iexists _; iexact HS3

end Regions

end Cert.Kernel.Fr

end
-- ==== Proof.K.Main.lean ====
/-
  The whole program's run: the host transposes and the bias reshape, the projection call, the host cast of X and the
  other bias reshape, the attention call. The contents of every unscoped buffer at each boundary are a fold through
  @main: the launch memory, after the first host stretch, after the projection call (its output array K at what the
  pipeline's write-backs leave, all else as entered), after the second host stretch, after the attention call (its
  output array at what its write-backs leave). Each call is entered from the buffers at the boundary before it and left
  at the boundary after it. At the end the result array holds what the attention call's write-backs left, and each of
  the six arguments what it held at launch: no host operation writes an argument and a call only reads one.
-/
import proofs.«400922_j71734543778413_3_alg».proof.Proof.K.Dat0
import proofs.«400922_j71734543778413_3_alg».proof.Proof.K.Dat1
import proofs.«400922_j71734543778413_3_alg».proof.Proof.Gen.Kernel.Regions
import Idealize.ShloMosaic.Lib.Pipeline.Regions
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the projection call's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection call's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the attention call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### Each argument ends as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- THE PROJECTION CALL as a segment: entered from every unscoped buffer at the contents before it, left at the
    contents after it; its arrays split out of the unscoped buffers and put back; the generator register into the
    call's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION CALL as a segment: entered from every unscoped buffer at the contents before it, left at the
    contents after it; its arrays split out of the unscoped buffers and put back; the generator register into the
    call's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

/-- What the attention call's write-backs leave in the result array. -/
def result (c : Dev nD) : Buf (Elt F) ((c : Thread nD τ).loc main_v6) := (dat1 (V3 m) c).arrAt 5 cfg1.N

set_option backward.isDefEq.respectTransparency.types false in
/-- THE RUN: from any memory with zero counters every weakly fair execution of @main terminates, nothing faulting,
    with the result array at `result` and every argument array as launched. -/
theorem run_main : θ_run defs (onTc (τ := τ) (main (F := F))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v6 (by decide))).trans (W4_arr m c 5),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Fr

end
-- ==== Proof.KI.Base.lean ====
/-
  What both kernel calls' frame proofs share. The program is two pallas_calls: the key projection
  K = X·Wkᵀ + bk over four row tiles of X, and the attention call over a 16 × 4 grid (query tile, key tile) that
  keeps a running row maximum, a running denominator, an unnormalised accumulator and the projected queries in four
  scratch buffers from one key tile to the next and writes its output block only at the last key tile of a query tile.
  Here: a window's block of its array as the call finds it; that an input window's buffer holds that block at every
  point; the two branch conditions of the attention body (first key tile, last key tile) decided over the grid; where
  the attention call's output window is idle; names for the staging and scratch memrefs.
-/
import proofs.«400922_j71734543778413_3_alg».proof.Proof.Gen.KernelIdeal.Launch
import proofs.«400922_j71734543778413_3_alg».proof.Proof.Gen.KernelIdeal.Skeleton
import proofs.«400922_j71734543778413_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffers' contents when a call is entered: a parameter, fixed per call by the run
variable (V : (c : Dev nD) → (b : Ref sig .tc) → Buf (Elt F) ((c : Thread nD τ).loc b))

/-! ## The projection call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of the projection call holds its block of the array whenever the body runs, fetched at that point or
    kept from an earlier one (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of the projection call holds its block of the array whenever the body runs, fetched at that point or
    kept from an earlier one (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of the projection call holds its block of the array whenever the body runs, fetched at that point or
    kept from an earlier one (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The attention call -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of the attention call holds its block of the array whenever the body runs, fetched at that point or
    kept from an earlier one (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of the attention call holds its block of the array whenever the body runs, fetched at that point or
    kept from an earlier one (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of the attention call holds its block of the array whenever the body runs, fetched at that point or
    kept from an earlier one (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of the attention call holds its block of the array whenever the body runs, fetched at that point or
    kept from an earlier one (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of the attention call holds its block of the array whenever the body runs, fetched at that point or
    kept from an earlier one (its block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The attention body's two branches -/

/-- "This is the first key tile of the query tile": the body resets its four scratch buffers. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile of the query tile": the body normalises and stores its output block. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the attention call's windows are idle -/

theorem liveAt0_3 : ∀ t : Fin cfg0.N, cfg0.idle 3 (grid0.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last key tile the output window is idle: nothing is stored into it, -/
theorem idleAt1_5 : ∀ t : Fin cfg1.N, ¬cond1_1 (grid1.coords t) → cfg1.idle 5 (grid1.coords t) = true := by decide +kernel
/-- and it is not written back there; -/
theorem noFlush1_5 : ∀ t : Fin cfg1.N, ¬cond1_1 (grid1.coords t) → (cfg1.win 5).flush t = false := by decide +kernel
/-- at the last key tile it is live. -/
theorem liveAt1_5 : ∀ t : Fin cfg1.N, cond1_1 (grid1.coords t) → cfg1.idle 5 (grid1.coords t) = false := by decide +kernel

/-! ## Names for the memrefs the bodies are called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)

/-- The four scratch buffers of the attention call: the running row maximum, the running denominator, the
    unnormalised accumulator, the projected query tile. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev scQ : Memref sig .tc .vmem S512x512 .bf16 := Memref.whole cc1_scratch3

/-- One staging buffer of each call's output window, through which its contents are stated. -/
abbrev VO0 : View sig .tc .vmem S2048x512 .bf16 := (Memref.whole cc0_stg3_0 : Memref sig .tc .vmem S2048x512 .bf16).view
abbrev VO1 : View sig .tc .vmem S512x1024 .f32 := (Memref.whole cc1_stg5_0 : Memref sig .tc .vmem S512x1024 .f32).view

/-- The projection call's staging buffers, which the attention call never touches, each at some contents. -/
def otherStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the attention call's body may use beside its windows, when nothing is known of the scratch: the other call's
    staging buffers, the four scratch buffers each at some contents, the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM fullShare d) ∗ (∃ d, owns (c : Thread nD τ) scL fullShare d) ∗ (∃ d, owns (c : Thread nD τ) scA fullShare d) ∗ (∃ d, owns (c : Thread nD τ) scQ fullShare d))
          ∗ (∃ r, prngReg c r)) := by
  unfold Pipeline.ΦA; rw [scopedRest1_eq]; simp only [scM, scL, scA, scQ, owns_whole]; try rfl

end Cert.KernelIdeal.Fr

end
-- ==== Proof.KI.Run0.lean ====
/-
  The projection body run once: on whole staging memrefs holding a row tile of X, the transposed weight and the bias
  row, with the output tile's buffer at anything, the body loads the three, forms X·Wkᵀ + bk and stores it over the
  whole output buffer. What the output buffer then holds is recorded as the list of stored pieces the run finds.
-/
import proofs.«400922_j71734543778413_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the projection body leaves in its output buffer, with the proof that the body runs to a continuation
    holding the three inputs as they were and the output buffer with those pieces written. -/
noncomputable def kernelRun0 (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S2048x512 .bf16) (harg4 : arg4.IsWhole)
    (x0 : Vec F S2048x1024 .f32) (x1 : Vec F S1024x512 .f32) (x2 : Vec F S1x512 .f32) :
    { L3 : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__linear_kernel i arg1 harg1 arg2 harg2 arg3 harg3 arg4 harg4) K } := by
  refine ⟨?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Fr

end
-- ==== Proof.KI.Dat0.lean ====
/-
  The projection call's proof data and body obligation: its arrays as the call finds them; after the body at a point
  the three input windows' buffers still at their blocks (a row tile of X, the whole transposed weight, the bias row)
  and the output window's at what the body's store leaves; nothing kept between points.
-/
import proofs.«400922_j71734543778413_3_alg».proof.Proof.KI.Run0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the projection body's store leaves in the output tile's buffer, read back over anything. -/
def out0_3 (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S2048x512 .bf16) (harg4 : arg4.IsWhole) (x0 : Vec F S2048x1024 .f32) (x1 : Vec F S1024x512 .f32) (x2 : Vec F S1x512 .f32) : Vec F S2048x512 .bf16 :=
  VO0.read (Elt F) (VO0.writes (Elt F) VO0.junk (kernelRun0 c i arg1 harg1 arg2 harg2 arg3 harg3 arg4 harg4 x0 x1 x2).1)

/-- The store covers the whole output tile. -/
theorem cover0_3 (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S2048x512 .bf16) (harg4 : arg4.IsWhole) (x0 : Vec F S2048x1024 .f32) (x1 : Vec F S1024x512 .f32) (x2 : Vec F S1x512 .f32) (y : S2048x512.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S2048x512.size (by sl_kernel_rfl) y

section Regions
variable (V : (c : Dev nD) → (b : Ref sig .tc) → Buf (Elt F) ((c : Thread nD τ).loc b))

/-- The proof data of the projection call on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1000000 in
/-- The body at any point: the inputs' buffers hold their blocks, so the run applies; the output buffer ends at the
    run's piece read back, which covers it; the invariant and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.KI.Run1A.lean ====
/-
  The attention body at the FIRST key tile of a query tile. The four scratch buffers hold anything; the body resets the
  running maximum to the finite stand-in, the denominator and the accumulator to zero, projects the query tile
  (A·Wqᵀ + bq) into its scratch, then does one online-softmax step with this key tile. The output window is idle.
-/
import proofs.«400922_j71734543778413_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces this case of the attention body leaves in the buffers it stores into, with the proof that the body
    runs to a continuation holding every input tile as it was and those buffers with the pieces written. -/
noncomputable def kernelRun1_A (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i)
    (x0 : Vec F S512x1024 .f32) (x1 : Vec F S1024x512 .f32) (x2 : Vec F S1x512 .f32) (x3 : Vec F S2048x512 .bf16) (x4 : Vec F S2048x1024 .bf16) :
    Σ' (LS0 : List (View.Piece (Elt F) S512x1 .f32)) (LS1 : List (View.Piece (Elt F) S512x1 .f32)) (LS2 : List (View.Piece (Elt F) S512x1024 .f32)), { LS3 : List (View.Piece (Elt F) S512x512 .bf16) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Fr

end
-- ==== Proof.KI.Run1B.lean ====
/-
  The attention body at a MIDDLE key tile. The scratch buffers hold what the previous key tile left; the body does one
  online-softmax step (new maximum, rescale, add this tile's exponentials and its weighted values) and stores the
  maximum, the denominator and the accumulator back. The projected queries are only read. The output window is idle.
-/
import proofs.«400922_j71734543778413_3_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces this case of the attention body leaves in the buffers it stores into, with the proof that the body
    runs to a continuation holding every input tile as it was and those buffers with the pieces written. -/
noncomputable def kernelRun1_B (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i)
    (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    Σ' (LS0 : List (View.Piece (Elt F) S512x1 .f32)) (LS1 : List (View.Piece (Elt F) S512x1 .f32)), { LS2 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Fr

end
-- ==== Proof.KI.Run1C.lean ====
/-
  The attention body at the LAST key tile of a query tile: one online-softmax step as at a middle tile, then the
  accumulator times the reciprocal of the denominator is stored over the whole output block.
-/
import proofs.«400922_j71734543778413_3_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces this case of the attention body leaves in the buffers it stores into, with the proof that the body
    runs to a continuation holding every input tile as it was and those buffers with the pieces written. -/
noncomputable def kernelRun1_C (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i)
    (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    Σ' (L5 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Fr

end
-- ==== Proof.KI.Dat1.lean ====
/-
  The attention call's proof data and body obligation. Within a query tile the four key tiles are visited in order and
  the body carries, in scratch, the running row maximum m, the running denominator l, the unnormalised accumulator acc
  and the projected query tile q. So what the buffers hold after a point is a recursion on the point: at a first key
  tile the reset-and-step case's contents, afterwards the step case's contents over what the point before left; the
  output tile's buffer is stored only at a last key tile. The call's invariant between points is the scratch buffers
  at exactly those contents; before the first point and after the last it says nothing of them.
-/
import proofs.«400922_j71734543778413_3_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the run's pieces -/

theorem scover1_A_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).1 S512x1.size (by sl_kernel_rfl) y

/-- What case A leaves in the running maximum's scratch: its pieces read back. -/
def sout1_A_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) : Vec F S512x1 .f32 :=
  scM.view.read (Elt F) (scM.view.writes (Elt F) scM.view.junk (kernelRun1_A c i arg2 harg2 arg3 harg3 arg4 harg4 arg5 harg5 arg6 harg6 arg7 harg7 arg8 harg8 arg9 harg9 arg10 harg10 arg11 harg11 hc0 hc1 x0 x1 x2 x3 x4).1)

theorem scover1_A_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.1 S512x1.size (by sl_kernel_rfl) y

/-- What case A leaves in the running denominator's scratch: its pieces read back. -/
def sout1_A_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) : Vec F S512x1 .f32 :=
  scL.view.read (Elt F) (scL.view.writes (Elt F) scL.view.junk (kernelRun1_A c i arg2 harg2 arg3 harg3 arg4 harg4 arg5 harg5 arg6 harg6 arg7 harg7 arg8 harg8 arg9 harg9 arg10 harg10 arg11 harg11 hc0 hc1 x0 x1 x2 x3 x4).2.1)

theorem scover1_A_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) (y : S512x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.2.1 S512x1024.size (by sl_kernel_rfl) y

/-- What case A leaves in the accumulator's scratch: its pieces read back. -/
def sout1_A_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) : Vec F S512x1024 .f32 :=
  scA.view.read (Elt F) (scA.view.writes (Elt F) scA.view.junk (kernelRun1_A c i arg2 harg2 arg3 harg3 arg4 harg4 arg5 harg5 arg6 harg6 arg7 harg7 arg8 harg8 arg9 harg9 arg10 harg10 arg11 harg11 hc0 hc1 x0 x1 x2 x3 x4).2.2.1)

theorem scover1_A_3 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) (y : S512x512.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.2.2.1 S512x512.size (by sl_kernel_rfl) y

/-- What case A leaves in the projected queries's scratch: its pieces read back. -/
def sout1_A_3 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) : Vec F S512x512 .bf16 :=
  scQ.view.read (Elt F) (scQ.view.writes (Elt F) scQ.view.junk (kernelRun1_A c i arg2 harg2 arg3 harg3 arg4 harg4 arg5 harg5 arg6 harg6 arg7 harg7 arg8 harg8 arg9 harg9 arg10 harg10 arg11 harg11 hc0 hc1 x0 x1 x2 x3 x4).2.2.2.1)

theorem scover1_B_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1 S512x1.size (by sl_kernel_rfl) y

/-- What case B leaves in the running maximum's scratch: its pieces read back. -/
def sout1_B_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1 .f32 :=
  scM.view.read (Elt F) (scM.view.writes (Elt F) scM.view.junk (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1)

theorem scover1_B_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S512x1.size (by sl_kernel_rfl) y

/-- What case B leaves in the running denominator's scratch: its pieces read back. -/
def sout1_B_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1 .f32 :=
  scL.view.read (Elt F) (scL.view.writes (Elt F) scL.view.junk (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1)

theorem scover1_B_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S512x1024.size (by sl_kernel_rfl) y

/-- What case B leaves in the accumulator's scratch: its pieces read back. -/
def sout1_B_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1024 .f32 :=
  scA.view.read (Elt F) (scA.view.writes (Elt F) scA.view.junk (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1)

theorem scover1_C_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S512x1.size (by sl_kernel_rfl) y

/-- What case C leaves in the running maximum's scratch: its pieces read back. -/
def sout1_C_0 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1 .f32 :=
  scM.view.read (Elt F) (scM.view.writes (Elt F) scM.view.junk (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1)

theorem scover1_C_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S512x1.size (by sl_kernel_rfl) y

/-- What case C leaves in the running denominator's scratch: its pieces read back. -/
def sout1_C_1 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1 .f32 :=
  scL.view.read (Elt F) (scL.view.writes (Elt F) scL.view.junk (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1)

theorem scover1_C_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1 S512x1024.size (by sl_kernel_rfl) y

/-- What case C leaves in the accumulator's scratch: its pieces read back. -/
def sout1_C_2 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1024 .f32 :=
  scA.view.read (Elt F) (scA.view.writes (Elt F) scA.view.junk (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1)

theorem cover1_C_5 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) (y : S512x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1 S512x1024.size (by sl_kernel_rfl) y

/-- What the last key tile's case leaves in the output tile's buffer: its piece read back. -/
def out1_C_5 (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) : Vec F S512x1024 .f32 :=
  VO1.read (Elt F) (VO1.writes (Elt F) VO1.junk (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1)

section Regions
variable (V : (c : Dev nD) → (b : Ref sig .tc) → Buf (Elt F) ((c : Thread nD τ).loc b))

/-! ## After each point -/

/-- The contents after the body at a point: the output tile's buffer, then m, l, acc, q. -/
abbrev St (F : FTy → Type) [FloatOps F] : Type := Vec F S512x1024 .f32 × Vec F S512x1 .f32 × Vec F S512x1 .f32 × Vec F S512x1024 .f32 × Vec F S512x512 .bf16

/-- After a first key tile (reset, project the queries, one step): nothing in the output buffer yet. -/
def stA (c : Dev nD) (t : Fin cfg1.N) (h0 : t.val % 4 = 0) (h1 : ¬t.val % 4 = 3) : St F :=
  (VO1.read (Elt F) VO1.junk,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) ((hcond1_0 t).mpr h0) (fun h => h1 ((hcond1_1 t).mp h)) (iblk1 V c 0 t) (iblk1 V c 1 t) (iblk1 V c 2 t) (iblk1 V c 3 t) (iblk1 V c 4 t))

/-- After a middle key tile: one step over what the point before left (`p`); the queries are kept. -/
def stB (c : Dev nD) (t : Fin cfg1.N) (h0 : ¬t.val % 4 = 0) (h1 : ¬t.val % 4 = 3) (p : St F) : St F :=
  (VO1.read (Elt F) VO1.junk,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2,
   p.2.2.2.2)

/-- After a last key tile: one step over what the point before left, and the normalised output tile. -/
def stC (c : Dev nD) (t : Fin cfg1.N) (h0 : ¬t.val % 4 = 0) (h1 : t.val % 4 = 3) (p : St F) : St F :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) scQ (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2,
   p.2.2.2.2)

/-- The contents after the body at position `n`, by recursion on the position. -/
def outsAt1 (c : Dev nD) : (n : ℕ) → n < cfg1.N → St F
  | 0, hn => stA V c ⟨0, hn⟩ (Nat.zero_mod _) (by show ¬ 0 % 4 = 3; decide)
  | n + 1, hn =>
    if h0 : (n + 1) % 4 = 0 then
      stA V c ⟨n + 1, hn⟩ h0 (by show ¬ (n + 1) % 4 = 3; omega)
    else if h1 : (n + 1) % 4 = 3 then
      stC V c ⟨n + 1, hn⟩ h0 h1 (outsAt1 c n (Nat.lt_of_succ_lt hn))
    else
      stB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = stA V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between points -/

/-- Before the first point nothing is known of the scratch; before any later point the four scratch buffers hold
    what the point before left. The other call's staging buffers and the generator register ride along. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
        ∗ owns (c : Thread nD τ) scM fullShare (outsAt1 V c n hn).2.1 ∗ owns (c : Thread nD τ) scL fullShare (outsAt1 V c n hn).2.2.1
        ∗ owns (c : Thread nD τ) scA fullShare (outsAt1 V c n hn).2.2.2.1 ∗ owns (c : Thread nD τ) scQ fullShare (outsAt1 V c n hn).2.2.2.2)
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
        ∗ owns (c : Thread nD τ) scM fullShare (outsAt1 V c n hn).2.1 ∗ owns (c : Thread nD τ) scL fullShare (outsAt1 V c n hn).2.2.1
        ∗ owns (c : Thread nD τ) scA fullShare (outsAt1 V c n hn).2.2.2.1 ∗ owns (c : Thread nD τ) scQ fullShare (outsAt1 V c n hn).2.2.2.2)
      ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
        ∗ owns (c : Thread nD τ) scM fullShare (outsAt1 V c (n - 1) (by omega)).2.1 ∗ owns (c : Thread nD τ) scL fullShare (outsAt1 V c (n - 1) (by omega)).2.2.1
        ∗ owns (c : Thread nD τ) scA fullShare (outsAt1 V c (n - 1) (by omega)).2.2.2.1 ∗ owns (c : Thread nD τ) scQ fullShare (outsAt1 V c (n - 1) (by omega)).2.2.2.2)
      ∗ (∃ r, prngReg c r)) := by
  cases n with
  | zero => exact absurd rfl hz
  | succ n => rfl

/-! ## The proof data -/

/-- The proof data of the attention call on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point, by cases on which key tile of its query tile the point is: the inputs' buffers hold their
    blocks; the invariant hands the body the scratch at what the point before left (at anything before the first
    point) and takes it back at this point's contents, which the run's pieces cover. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold stA sout1_A_0 sout1_A_1 sout1_A_2 sout1_A_3; (try dsimp only)
    by_cases hz : t.val = 0
    · rw [PhiS1_castSucc V c t, PhiS1_zero V c _ _ hz, PhiA1_eq]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [S1 S2 S3 S4 S5 S6 HS0 HS1 HS2 HS3 Hg]
      · isplitr [Hg]
        swap; · iexact Hg
        isplitl [S1]; · iexact S1
        isplitl [S2]; · iexact S2
        isplitl [S3]; · iexact S3
        isplitl [S4]; · iexact S4
        isplitl [S5]; · iexact S5
        isplitl [S6]; · iexact S6
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [S1 S2 S3 S4 S5 S6 HS0 HS1 HS2 HS3 Hg]
      · isplitr [Hg]
        swap; · iexact Hg
        isplitl [S1]; · iexact S1
        isplitl [S2]; · iexact S2
        isplitl [S3]; · iexact S3
        isplitl [S4]; · iexact S4
        isplitl [S5]; · iexact S5
        isplitl [S6]; · iexact S6
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold stC out1_C_5 sout1_C_0 sout1_C_1 sout1_C_2; (try dsimp only)
      rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      isplitl [S1 S2 S3 S4 S5 S6 HS0 HS1 HS2 HS3 Hg]
      · isplitr [Hg]
        swap; · iexact Hg
        isplitl [S1]; · iexact S1
        isplitl [S2]; · iexact S2
        isplitl [S3]; · iexact S3
        isplitl [S4]; · iexact S4
        isplitl [S5]; · iexact S5
        isplitl [S6]; · iexact S6
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ _ _)
        iexact HS3
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold stB sout1_B_0 sout1_B_1 sout1_B_2; (try dsimp only)
      rw [PhiS1_castSucc V c t, PhiS1_pos V c _ _ hz]
      iintro ⟨⟨⟨S1, S2, S3, S4, S5, S6, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      isplitl [S1 S2 S3 S4 S5 S6 HS0 HS1 HS2 HS3 Hg]
      · isplitr [Hg]
        swap; · iexact Hg
        isplitl [S1]; · iexact S1
        isplitl [S2]; · iexact S2
        isplitl [S3]; · iexact S3
        isplitl [S4]; · iexact S4
        isplitl [S5]; · iexact S5
        isplitl [S6]; · iexact S6
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ _ _)
        iexact HS3
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨S1, S2, S3, S4, S5, S6, HS0, HS1, HS2, HS3⟩, Hg⟩
  isplitr [Hg]
  swap; · iexact Hg
  isplitl [S1]; · iexact S1
  isplitl [S2]; · iexact S2
  isplitl [S3]; · iexact S3
  isplitl [S4]; · iexact S4
  isplitl [S5]; · iexact S5
  isplitl [S6]; · iexact S6
  isplitl [HS0]; · iexists _; iexact HS0
  isplitl [HS1]; · iexists _; iexact HS1
  isplitl [HS2]; · iexists _; iexact HS2
  iexists _; iexact HS3

end Regions

end Cert.KernelIdeal.Fr

end
-- ==== Proof.KI.Main.lean ====
/-
  The whole program's run: the host transposes and the bias reshape, the projection call, the host cast of X and the
  other bias reshape, the attention call. The contents of every unscoped buffer at each boundary are a fold through
  @main: the launch memory, after the first host stretch, after the projection call (its output array K at what the
  pipeline's write-backs leave, all else as entered), after the second host stretch, after the attention call (its
  output array at what its write-backs leave). Each call is entered from the buffers at the boundary before it and left
  at the boundary after it. At the end the result array holds what the attention call's write-backs left, and each of
  the six arguments what it held at launch: no host operation writes an argument and a call only reads one.
-/
import proofs.«400922_j71734543778413_3_alg».proof.Proof.KI.Dat0
import proofs.«400922_j71734543778413_3_alg».proof.Proof.KI.Dat1
import proofs.«400922_j71734543778413_3_alg».proof.Proof.Gen.KernelIdeal.Regions
import Idealize.ShloMosaic.Lib.Pipeline.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the projection call's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection call's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the attention call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### Each argument ends as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- THE PROJECTION CALL as a segment: entered from every unscoped buffer at the contents before it, left at the
    contents after it; its arrays split out of the unscoped buffers and put back; the generator register into the
    call's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE ATTENTION CALL as a segment: entered from every unscoped buffer at the contents before it, left at the
    contents after it; its arrays split out of the unscoped buffers and put back; the generator register into the
    call's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

/-- What the attention call's write-backs leave in the result array. -/
def result (c : Dev nD) : Buf (Elt F) ((c : Thread nD τ).loc main_v6) := (dat1 (V3 m) c).arrAt 5 cfg1.N

set_option backward.isDefEq.respectTransparency.types false in
/-- THE RUN: from any memory with zero counters every weakly fair execution of @main terminates, nothing faulting,
    with the result array at `result` and every argument array as launched. -/
theorem run_main : θ_run defs (onTc (τ := τ) (main (F := F))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v6 (by decide))).trans (W4_arr m c 5),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c)⟩)

/-- The frame: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Fr

end
-- ==== Proof.KI.Pieces.lean ====
/-
  What the bodies' stores leave, as the arithmetic's own terms. The projection body leaves X·Wkᵀ + bk of its three input
  tiles. At a first key tile the attention body leaves the projected queries q = A·Wqᵀ + bq, and the maximum, the
  denominator and the accumulator after one step from the reset values (the finite stand-in for −∞, 0, 0) with that q;
  at a later key tile the same step from what the scratch held; at a last key tile also the output tile, the new
  accumulator times the reciprocal of the new denominator. Each store covers its whole buffer, and a load after a
  store into the same buffer reads what was stored.
-/
import proofs.«400922_j71734543778413_3_alg».proof.Proof.KI.Dat0
import proofs.«400922_j71734543778413_3_alg».proof.Proof.KI.Dat1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The projection call -/

theorem out0_3_eq (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S2048x512 .bf16) (harg4 : arg4.IsWhole) (x0 : Vec F S2048x1024 .f32) (x1 : Vec F S1024x512 .f32) (x2 : Vec F S1x512 .f32) :
    out0_3 c i arg1 harg1 arg2 harg2 arg3 harg3 arg4 harg4 x0 x1 x2 = k0_pay1 x0 x1 x2 := by
  unfold out0_3
  rw [View.read_writes_eq_canon _ _ _ (cover0_3 c i arg1 harg1 arg2 harg2 arg3 harg3 arg4 harg4 x0 x1 x2)]
  unfold kernelRun0
  dsimp only
  sl_unfold_words
  rw [View.canon_unit_zero hz]
  simp only [View.readAt_eq_ld, harg1.read_unread, harg2.read_unread, harg3.read_unread, View.ld_unit_zero (S := S2048x1024) hz, View.ld_unit_zero (S := S1024x512) hz, View.ld_unit_zero (S := S1x512) hz, shapeCast_self]

/-! ## The attention call, first key tile -/

theorem sout1_A_3_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) :
    sout1_A_3 c i arg2 harg2 arg3 harg3 arg4 harg4 arg5 harg5 arg6 harg6 arg7 harg7 arg8 harg8 arg9 harg9 arg10 harg10 arg11 harg11 hc0 hc1 x0 x1 x2 x3 x4 = k1_pay7 x0 x1 x2 := by
  unfold sout1_A_3
  rw [View.read_writes_eq_canon _ _ _ (scover1_A_3 c i arg2 harg2 arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self, View.readCov_unit_zero (S := S512x1) _ hz, View.readCov_unit_zero (S := S512x1024) _ hz, View.readCov_unit_zero (S := S512x512) _ hz]
theorem sout1_A_0_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) :
    sout1_A_0 c i arg2 harg2 arg3 harg3 arg4 harg4 arg5 harg5 arg6 harg6 arg7 harg7 arg8 harg8 arg9 harg9 arg10 harg10 arg11 harg11 hc0 hc1 x0 x1 x2 x3 x4 = k1_pay2 (k1_pay9 (k1_pay7 x0 x1 x2) x3 (k1_pay4 (F := F))) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self, View.readCov_unit_zero (S := S512x1) _ hz, View.readCov_unit_zero (S := S512x1024) _ hz, View.readCov_unit_zero (S := S512x512) _ hz]
theorem sout1_A_1_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) :
    sout1_A_1 c i arg2 harg2 arg3 harg3 arg4 harg4 arg5 harg5 arg6 harg6 arg7 harg7 arg8 harg8 arg9 harg9 arg10 harg10 arg11 harg11 hc0 hc1 x0 x1 x2 x3 x4 = k1_pay12 (k1_pay7 x0 x1 x2) x3 (k1_pay4 (F := F)) (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self, View.readCov_unit_zero (S := S512x1) _ hz, View.readCov_unit_zero (S := S512x1024) _ hz, View.readCov_unit_zero (S := S512x512) _ hz]
theorem sout1_A_2_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : cond1_0 i) (hc1 : ¬cond1_1 i) (x0 : Vec F S512x1024 .f32) (x1 : Vec F S1024x512 .f32) (x2 : Vec F S1x512 .f32) (x3 : Vec F S2048x512 .bf16) (x4 : Vec F S2048x1024 .bf16) :
    sout1_A_2 c i arg2 harg2 arg3 harg3 arg4 harg4 arg5 harg5 arg6 harg6 arg7 harg7 arg8 harg8 arg9 harg9 arg10 harg10 arg11 harg11 hc0 hc1 x0 x1 x2 x3 x4 = k1_pay1 (k1_pay13 (k1_pay7 x0 x1 x2) x3 (k1_pay4 (F := F)) (k1_pay4 (F := F)) x4 (k1_pay6 (F := F))) := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S512x1024) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self, View.readCov_unit_zero (S := S512x1) _ hz, View.readCov_unit_zero (S := S512x1024) _ hz, View.readCov_unit_zero (S := S512x512) _ hz]

/-! ## A middle key tile -/

theorem sout1_B_0_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    sout1_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3 = k1_pay2 (k1_pay9 xs3 x3 xs0) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self]
theorem sout1_B_1_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    sout1_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3 = k1_pay12 xs3 x3 xs0 xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self]
theorem sout1_B_2_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : ¬cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    sout1_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = k1_pay1 (k1_pay13 xs3 x3 xs0 xs0 x4 xs2) := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self]

/-! ## The last key tile -/

theorem sout1_C_0_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    sout1_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3 = k1_pay2 (k1_pay9 xs3 x3 xs0) := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun1_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self]
theorem sout1_C_1_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    sout1_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3 = k1_pay12 xs3 x3 xs0 xs0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun1_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self]
theorem sout1_C_2_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    sout1_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = k1_pay1 (k1_pay13 xs3 x3 xs0 xs0 x4 xs2) := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun1_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self]
theorem out1_C_5_eq (c : Dev nD) (i : grid1.Coords) (arg2 : Memref sig .tc .vmem S512x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x512 .bf16) (harg11 : arg11.IsWhole) (hc0 : ¬cond1_0 i) (hc1 : cond1_1 i) (x0 : Vec F S512x1024 .f32) (x1 : Vec F S1024x512 .f32) (x2 : Vec F S1x512 .f32) (x3 : Vec F S2048x512 .bf16) (x4 : Vec F S2048x1024 .bf16) (xs0 : Vec F S512x1 .f32) (xs1 : Vec F S512x1 .f32) (xs2 : Vec F S512x1024 .f32) (xs3 : Vec F S512x512 .bf16) :
    out1_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3 = k1_pay3 (k1_pay12 xs3 x3 xs0 xs0 xs1) (k1_pay1 (k1_pay13 xs3 x3 xs0 xs0 x4 xs2)) := by
  unfold out1_C_5
  rw [View.read_writes_eq_canon _ _ _ (cover1_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun1_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz, View.ld_unit_zero (S := S1024x512) hz, View.ld_unit_zero (S := S1x512) hz, View.ld_unit_zero (S := S2048x512) hz, View.ld_unit_zero (S := S2048x1024) hz, View.ld_unit_zero (S := S512x1) hz, View.ld_unit_zero (S := S512x512) hz, shapeCast_self, View.readCov_unit_zero (S := S512x1) _ hz, View.readCov_unit_zero (S := S512x1024) _ hz, View.readCov_unit_zero (S := S512x512) _ hz]

end Cert.KernelIdeal.Fr

end
-- ==== Proof.KI.Blocks.lean ====
/-
  A window's tile at plain coordinates. The projection call walks X in four row tiles of 2048 and writes the keys' array in
  the same four row tiles; its weight and bias windows are whole arrays. The attention call's point t is query tile t / 4
  and key tile t % 4: the A window and the output window are row tile t / 4 (512 rows), the key and value windows row tile
  t % 4 (2048 rows), the weight and bias windows whole arrays. The output row tiles of each call cover its result array.
-/
import proofs.«400922_j71734543778413_3_alg».proof.Proof.KI.Base
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ (UR sig nD τ) ℕ

/-! ## The index maps over the grids

Each window's block index at a point, axis by axis: the projection call's row windows follow the point, the attention
call's query-side windows follow t / 4 and its key-side windows t % 4; a whole-array window sits at block (0, 0). -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx1_0 : ∀ t : Fin cfg1.N, win1_0.index t (0 : Fin 2) = t.val / 4 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val % 4 ∧ win1_3.index t (1 : Fin 2) = 0 :=
  (by decide +kernel : ∀ t : Fin grid1.N, _)
theorem idx1_4 : ∀ t : Fin cfg1.N, win1_4.index t (0 : Fin 2) = t.val % 4 ∧ win1_4.index t (1 : Fin 2) = 0 :=
  (by decide +kernel : ∀ t : Fin grid1.N, _)
theorem idx1_5 : ∀ t : Fin cfg1.N, win1_5.index t (0 : Fin 2) = t.val / 4 ∧ win1_5.index t (1 : Fin 2) = 0 :=
  (by decide +kernel : ∀ t : Fin grid1.N, _)

section Regions
variable (V : (c : Dev nD) → (b : Ref sig .tc) → Buf (Elt F) ((c : Thread nD τ).loc b))

/-! ## The projection call's input tiles -/

theorem iblk0_0_apply (c : Dev nD) (t : Fin cfg0.N) (r : Fin 2048) (k : Fin 1024) :
    (iblk0 V c 0 t : Vec F S2048x1024 .f32) (ix2 r k)
      = (V c main_arg1 : S8192x1024.Idx → Elt F .f32) (ix2 ⟨2048 * t.val + r.val, (by have h := lt_of_lt_of_eq t.isLt (show cfg0.N = 4 from N_0); have := r.isLt; omega)⟩ k) := by
  unfold iblk0
  rw [View.read_apply]
  show V c main_arg1 _ = V c main_arg1 _
  congr 1
  funext a
  apply Fin.ext
  match a with
  | ⟨0, _⟩ => show win0_0.index t 0 * 2048 + 1 * r.val = 2048 * t.val + r.val; rw [(idx0_0 t).1]; omega
  | ⟨1, _⟩ => show win0_0.index t 1 * 1024 + 1 * k.val = k.val; rw [(idx0_0 t).2]; omega
theorem iblk0_1_apply (c : Dev nD) (t : Fin cfg0.N) (k : Fin 1024) (h : Fin 512) :
    (iblk0 V c 1 t : Vec F S1024x512 .f32) (ix2 k h) = (V c main_v1 : S1024x512.Idx → Elt F .f32) (ix2 k h) := by
  unfold iblk0
  rw [View.read_apply]
  show V c main_v1 _ = V c main_v1 _
  congr 1
  funext a
  apply Fin.ext
  match a with
  | ⟨0, _⟩ => show win0_1.index t 0 * 1024 + 1 * k.val = k.val; rw [(idx0_1 t).1]; omega
  | ⟨1, _⟩ => show win0_1.index t 1 * 512 + 1 * h.val = h.val; rw [(idx0_1 t).2]; omega
theorem iblk0_2_apply (c : Dev nD) (t : Fin cfg0.N) (h : Fin 512) :
    (iblk0 V c 2 t : Vec F S1x512 .f32) (ix2 0 h) = (V c main_v2 : S1x512.Idx → Elt F .f32) (ix2 0 h) := by
  unfold iblk0
  rw [View.read_apply]
  show V c main_v2 _ = V c main_v2 _
  congr 1
  funext a
  apply Fin.ext
  match a with
  | ⟨0, _⟩ => show win0_2.index t 0 * 1 + 1 * 0 = 0; rw [(idx0_2 t).1]
  | ⟨1, _⟩ => show win0_2.index t 1 * 512 + 1 * h.val = h.val; rw [(idx0_2 t).2]; omega

/-! ## The attention call's input tiles -/

theorem iblk1_0_apply (c : Dev nD) (t : Fin cfg1.N) (r : Fin 512) (k : Fin 1024) :
    (iblk1 V c 0 t : Vec F S512x1024 .f32) (ix2 r k)
      = (V c main_arg0 : S8192x1024.Idx → Elt F .f32) (ix2 ⟨512 * (t.val / 4) + r.val, (by have h := lt_of_lt_of_eq t.isLt (show cfg1.N = 64 from N_1); have := r.isLt; omega)⟩ k) := by
  unfold iblk1
  rw [View.read_apply]
  show V c main_arg0 _ = V c main_arg0 _
  congr 1
  funext a
  apply Fin.ext
  match a with
  | ⟨0, _⟩ => show win1_0.index t 0 * 512 + 1 * r.val = 512 * (t.val / 4) + r.val; rw [(idx1_0 t).1]; omega
  | ⟨1, _⟩ => show win1_0.index t 1 * 1024 + 1 * k.val = k.val; rw [(idx1_0 t).2]; omega
theorem iblk1_1_apply (c : Dev nD) (t : Fin cfg1.N) (k : Fin 1024) (h : Fin 512) :
    (iblk1 V c 1 t : Vec F S1024x512 .f32) (ix2 k h) = (V c main_v0 : S1024x512.Idx → Elt F .f32) (ix2 k h) := by
  unfold iblk1
  rw [View.read_apply]
  show V c main_v0 _ = V c main_v0 _
  congr 1
  funext a
  apply Fin.ext
  match a with
  | ⟨0, _⟩ => show win1_1.index t 0 * 1024 + 1 * k.val = k.val; rw [(idx1_1 t).1]; omega
  | ⟨1, _⟩ => show win1_1.index t 1 * 512 + 1 * h.val = h.val; rw [(idx1_1 t).2]; omega
theorem iblk1_2_apply (c : Dev nD) (t : Fin cfg1.N) (h : Fin 512) :
    (iblk1 V c 2 t : Vec F S1x512 .f32) (ix2 0 h) = (V c main_v5 : S1x512.Idx → Elt F .f32) (ix2 0 h) := by
  unfold iblk1
  rw [View.read_apply]
  show V c main_v5 _ = V c main_v5 _
  congr 1
  funext a
  apply Fin.ext
  match a with
  | ⟨0, _⟩ => show win1_2.index t 0 * 1 + 1 * 0 = 0; rw [(idx1_2 t).1]
  | ⟨1, _⟩ => show win1_2.index t 1 * 512 + 1 * h.val = h.val; rw [(idx1_2 t).2]; omega
theorem iblk1_3_apply (c : Dev nD) (t : Fin cfg1.N) (j : Fin 2048) (h : Fin 512) :
    (iblk1 V c 3 t : Vec F S2048x512 .bf16) (ix2 j h)
      = (V c main_v3 : S8192x512.Idx → Elt F .bf16) (ix2 ⟨2048 * (t.val % 4) + j.val, (by have h := lt_of_lt_of_eq t.isLt (show cfg1.N = 64 from N_1); have := j.isLt; omega)⟩ h) := by
  unfold iblk1
  rw [View.read_apply]
  show V c main_v3 _ = V c main_v3 _
  congr 1
  funext a
  apply Fin.ext
  match a with
  | ⟨0, _⟩ => show win1_3.index t 0 * 2048 + 1 * j.val = 2048 * (t.val % 4) + j.val; rw [(idx1_3 t).1]; omega
  | ⟨1, _⟩ => show win1_3.index t 1 * 512 + 1 * h.val = h.val; rw [(idx1_3 t).2]; omega
theorem iblk1_4_apply (c : Dev nD) (t : Fin cfg1.N) (j : Fin 2048) (d : Fin 1024) :
    (iblk1 V c 4 t : Vec F S2048x1024 .bf16) (ix2 j d)
      = (V c main_v4 : S8192x1024.Idx → Elt F .bf16) (ix2 ⟨2048 * (t.val % 4) + j.val, (by have h := lt_of_lt_of_eq t.isLt (show cfg1.N = 64 from N_1); have := j.isLt; omega)⟩ d) := by
  unfold iblk1
  rw [View.read_apply]
  show V c main_v4 _ = V c main_v4 _
  congr 1
  funext a
  apply Fin.ext
  match a with
  | ⟨0, _⟩ => show win1_4.index t 0 * 2048 + 1 * j.val = 2048 * (t.val % 4) + j.val; rw [(idx1_4 t).1]; omega
  | ⟨1, _⟩ => show win1_4.index t 1 * 1024 + 1 * d.val = d.val; rw [(idx1_4 t).2]; omega

end Regions

/-! ## The output tiles -/

/-- Row tile `t` of the keys' array read back from an array `G`. -/
theorem blk0_3_read (c : Dev nD) (t : Fin cfg0.N) (G : Buf (Elt F) ((cfg0.win 3).arr.view.loc (c : Thread nD τ))) (r : Fin 2048) (h : Fin 512) :
    (((cfg0.win 3).blk t).view.read (Elt F) G : Vec F S2048x512 .bf16) (ix2 r h)
      = (G : S8192x512.Idx → Elt F .bf16) (ix2 ⟨2048 * t.val + r.val, (by have h := lt_of_lt_of_eq t.isLt (show cfg0.N = 4 from N_0); have := r.isLt; omega)⟩ h) := by
  rw [View.read_apply]
  show (G : S8192x512.Idx → Elt F .bf16) _ = (G : S8192x512.Idx → Elt F .bf16) _
  congr 1
  funext a
  apply Fin.ext
  match a with
  | ⟨0, _⟩ => show win0_3.index t 0 * 2048 + 1 * r.val = 2048 * t.val + r.val; rw [(idx0_3 t).1]; omega
  | ⟨1, _⟩ => show win0_3.index t 1 * 512 + 1 * h.val = h.val; rw [(idx0_3 t).2]; omega
/-- The four row tiles cover the keys' array, and each is written back. -/
theorem cover0_3_arr (c : Dev nD) (i : ((cfg0.win 3).arr.view.loc (c : Thread nD τ)).2.ty.Idx) :
    ∃ t : Fin cfg0.N, (cfg0.win 3).flush t = true ∧ i ∈ ((cfg0.win 3).blk t).view.set := by
  have h0 : (i 0 : Nat) < 8192 := (i 0).isLt
  have h1 : (i 1 : Nat) < 512 := (i 1).isLt
  obtain ⟨t, ht⟩ : ∃ t : Fin cfg0.N, t.val = (i 0 : Nat) / 2048 :=
    ⟨⟨(i 0 : Nat) / 2048, by rw [show cfg0.N = 4 from N_0]; omega⟩, rfl⟩
  refine ⟨t, flush0_3 t, ?_⟩
  show i ∈ ((View.whole main_v3).slice (win0_3.rect t)).set
  rw [View.set_slice_whole, Rect.mem_set_unit]
  intro a
  match a with
  | ⟨0, _⟩ => show win0_3.index t 0 * 2048 ≤ (i 0 : Nat) ∧ (i 0 : Nat) < win0_3.index t 0 * 2048 + 2048
              rw [(idx0_3 t).1, ht]; omega
  | ⟨1, _⟩ => show win0_3.index t 1 * 512 ≤ (i 1 : Nat) ∧ (i 1 : Nat) < win0_3.index t 1 * 512 + 512
              rw [(idx0_3 t).2]; omega
/-- Row tile `t / 4` of the result array read back from an array `G`. -/
theorem blk1_5_read (c : Dev nD) (t : Fin cfg1.N) (G : Buf (Elt F) ((cfg1.win 5).arr.view.loc (c : Thread nD τ))) (r : Fin 512) (d : Fin 1024) :
    (((cfg1.win 5).blk t).view.read (Elt F) G : Vec F S512x1024 .f32) (ix2 r d)
      = (G : S8192x1024.Idx → Elt F .f32) (ix2 ⟨512 * (t.val / 4) + r.val, (by have h := lt_of_lt_of_eq t.isLt (show cfg1.N = 64 from N_1); have := r.isLt; omega)⟩ d) := by
  rw [View.read_apply]
  show (G : S8192x1024.Idx → Elt F .f32) _ = (G : S8192x1024.Idx → Elt F .f32) _
  congr 1
  funext a
  apply Fin.ext
  match a with
  | ⟨0, _⟩ => show win1_5.index t 0 * 512 + 1 * r.val = 512 * (t.val / 4) + r.val; rw [(idx1_5 t).1]; omega
  | ⟨1, _⟩ => show win1_5.index t 1 * 1024 + 1 * d.val = d.val; rw [(idx1_5 t).2]; omega
/-- The sixteen row tiles written back at the last key tiles cover the result array. -/
theorem cover1_5_arr (c : Dev nD) (i : ((cfg1.win 5).arr.view.loc (c : Thread nD τ)).2.ty.Idx) :
    ∃ t : Fin cfg1.N, (cfg1.win 5).flush t = true ∧ i ∈ ((cfg1.win 5).blk t).view.set := by
  have h0 : (i 0 : Nat) < 8192 := (i 0).isLt
  have h1 : (i 1 : Nat) < 1024 := (i 1).isLt
  obtain ⟨t, ht⟩ : ∃ t : Fin cfg1.N, t.val = 4 * ((i 0 : Nat) / 512) + 3 :=
    ⟨⟨4 * ((i 0 : Nat) / 512) + 3, by rw [show cfg1.N = 64 from N_1]; omega⟩, rfl⟩
  refine ⟨t, (flush1_5 t).mpr (by rw [ht]; omega), ?_⟩
  show i ∈ ((View.whole main_v6).slice (win1_5.rect t)).set
  rw [View.set_slice_whole, Rect.mem_set_unit]
  intro a
  match a with
  | ⟨0, _⟩ => show win1_5.index t 0 * 512 ≤ (i 0 : Nat) ∧ (i 0 : Nat) < win1_5.index t 0 * 512 + 512
              rw [(idx1_5 t).1, ht]; omega
  | ⟨1, _⟩ => show win1_5.index t 1 * 1024 ≤ (i 1 : Nat) ∧ (i 1 : Nat) < win1_5.index t 1 * 1024 + 1024
              rw [(idx1_5 t).2]; omega

end Cert.KernelIdeal.Fr

end
-- ==== Proof.KI.Entry.lean ====
/-
  What the two calls find in their arrays, at the ideal instance, as entries of the argument arrays. Before the projection
  call the host has transposed Wk and reshaped bk to a row; before the attention call it has also transposed Wq (at the
  start), changed X's float format (the identity here) and reshaped bq to a row; the key array is what the projection
  call's write-backs left. No host operation or call writes an argument.
-/
import proofs.«400922_j71734543778413_3_alg».proof.Proof.KI.Main
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## At the projection call's entry -/

/-- X itself. -/
theorem V1_arg1 (c : Dev nD) : V1 m c main_arg1 = m ((c : Thread nD τ).loc main_arg1) := by
  exact StableHlo.after_of_writes_sub hostOps0 _ hostOps0_writes (r := main_arg1) (by decide)
/-- The transposed key weight. -/
theorem V1_v1_apply (c : Dev nD) (k : Fin 1024) (h : Fin 512) :
    (V1 m c main_v1 : S1024x512.Idx → EReal) (ix2 k h) = (m ((c : Thread nD τ).loc main_arg4) : S512x1024.Idx → EReal) (ix2 h k) := by
  have e : (V1 m c main_v1 : S1024x512.Idx → EReal)
      = transpose S1024x512 [1, 0] (m ((c : Thread nD τ).loc main_arg4)) transposes_S512x1024_S1024x512_1_0 := by
    show StableHlo.after hostOps0 (fun b => m (c, b)) (Proc.devRef .tc main_v1) = _
    after_results <;> rfl
  rw [e]
  exact transpose_ix2_apply _ _ k h
/-- The key bias as a row. -/
theorem V1_v2_apply (c : Dev nD) (h : Fin 512) :
    (V1 m c main_v2 : S1x512.Idx → EReal) (ix2 0 h) = (m ((c : Thread nD τ).loc main_arg5) : S512.Idx → EReal) (ix1 h) := by
  have e : (V1 m c main_v2 : S1x512.Idx → EReal)
      = shapeCast S1x512 (m ((c : Thread nD τ).loc main_arg5)) shapeCasts_S512_S1x512 := by
    show StableHlo.after hostOps0 (fun b => m (c, b)) (Proc.devRef .tc main_v2) = _
    after_results <;> rfl
  rw [e]
  exact shapeCast_a_1a_apply _ _ 0 h

/-! ## At the attention call's entry -/

/-- A itself. -/
theorem V3_arg0 (c : Dev nD) : V3 m c main_arg0 = m ((c : Thread nD τ).loc main_arg0) := by
  exact calc V3 m c main_arg0
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
/-- The transposed query weight. -/
theorem V3_v0_apply (c : Dev nD) (k : Fin 1024) (h : Fin 512) :
    (V3 m c main_v0 : S1024x512.Idx → EReal) (ix2 k h) = (m ((c : Thread nD τ).loc main_arg2) : S512x1024.Idx → EReal) (ix2 h k) := by
  have e0 : V3 m c main_v0 = V1 m c main_v0 :=
    (StableHlo.after_of_writes_sub hostOps1 _ hostOps1_writes (r := main_v0) (by decide)).trans (W2_of_ne m c main_v0 (by decide))
  have e : (V1 m c main_v0 : S1024x512.Idx → EReal)
      = transpose S1024x512 [1, 0] (m ((c : Thread nD τ).loc main_arg2)) transposes_S512x1024_S1024x512_1_0 := by
    show StableHlo.after hostOps0 (fun b => m (c, b)) (Proc.devRef .tc main_v0) = _
    after_results <;> rfl
  rw [e0, e]
  exact transpose_ix2_apply _ _ k h
/-- The query bias as a row. -/
theorem V3_v5_apply (c : Dev nD) (h : Fin 512) :
    (V3 m c main_v5 : S1x512.Idx → EReal) (ix2 0 h) = (m ((c : Thread nD τ).loc main_arg3) : S512.Idx → EReal) (ix1 h) := by
  have e : (V3 m c main_v5 : S1x512.Idx → EReal)
      = shapeCast S1x512 (W2 m c (Proc.devRef .tc main_arg3)) shapeCasts_S512_S1x512 := by
    show StableHlo.after hostOps1 (W2 m c) (Proc.devRef .tc main_v5) = _
    after_results <;> rfl
  have e3 : W2 m c (Proc.devRef .tc main_arg3) = m ((c : Thread nD τ).loc main_arg3) :=
    (W2_of_ne m c main_arg3 (by decide)).trans
      (StableHlo.after_of_writes_sub hostOps0 _ hostOps0_writes (r := main_arg3) (by decide))
  rw [e, e3]
  exact shapeCast_a_1a_apply _ _ 0 h
/-- The values: X, its change of float format being the identity. -/
theorem V3_v4_apply (c : Dev nD) (i : S8192x1024.Idx) :
    (V3 m c main_v4 : S8192x1024.Idx → EReal) i = (m ((c : Thread nD τ).loc main_arg1) : S8192x1024.Idx → EReal) i := by
  have e : (V3 m c main_v4 : S8192x1024.Idx → EReal)
      = truncf (F := Ideal) (s := S8192x1024) (φ := .f32) .bf16 (W2 m c (Proc.devRef .tc main_arg1)) bitsLt_bf16_f32 := by
    show StableHlo.after hostOps1 (W2 m c) (Proc.devRef .tc main_v4) = _
    after_results <;> rfl
  have e1 : W2 m c (Proc.devRef .tc main_arg1) = m ((c : Thread nD τ).loc main_arg1) :=
    ((W2_arr m c 0).trans (((dat0 (V1 m) c).arrAt_in 0 rfl _).trans (A_eq0 (V1 m) c 0))).trans
      (StableHlo.after_of_writes_sub hostOps0 _ hostOps0_writes (r := main_arg1) (by decide))
  rw [e, e1]
  rfl
/-- The keys: what the projection call left. -/
theorem V3_v3 (c : Dev nD) : V3 m c main_v3 = (dat0 (V1 m) c).arrAt 3 cfg0.N := by
  exact calc V3 m c main_v3
    _ = W2 m c (Proc.devRef .tc main_v3) := StableHlo.after_of_writes_sub hostOps1 _ hostOps1_writes (r := main_v3) (by decide)
    _ = (dat0 (V1 m) c).arrAt 3 cfg0.N := W2_arr m c 3

end Cert.KernelIdeal.Fr

end
-- ==== Proof.Val.Pay.lean ====
/-
  The two kernel bodies' arithmetic read at one entry, on the extended reals. The projection bodies leave
  (∑_k a_{rk} w_{kh}) + b_h. An attention step, from the projected query tile q, a key tile k, a value tile v and the
  carried maximum m, denominator l and accumulator acc, forms the scores s_{rj} = ∑_h q_{rh} k_{jh}, the new maximum
  max(m_r, max_j s_{rj}) (the inner maximum taken from −∞), the rescale e^{m_r − m'_r}, the weights e^{s_{rj} − m'_r},
  the new denominator (rescale)·l_r + ∑_j (weights) and the new accumulator (rescale)·acc_{rd} + ∑_j (weights)·v_{jd};
  the output is acc_{rd}·(1/l_r). Changes of float format and the identity reshapes do nothing here.
-/
import proofs.«400922_j71734543778413_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Pay

open Cert.KernelIdeal Cert.KernelIdeal.Gen
open Idealize.ShloMosaic Idealize.ShloMosaic.ValueIdx

/-! ## Column forms of the layout operations -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `r` with coordinate `k` on the reduced axis is `(r, k)`. -/
theorem lift_row (r : Fin 512) (k : Fin 2048) :
    (reduces_S512x2048_S512).lift (ix1 r) k = ix2 r k := by
  funext c
  refine Fin.ext ?_
  match c with
  | ⟨0, _⟩ => rfl
  | ⟨1, _⟩ => rfl

/-- The word `0xFF800000` is −∞. -/
theorem ofBits_neg_inf_f32 : Ideal.ofBits .f32 0xFF800000#32 = (⊥ : EReal) := by
  simp [Ideal.ofBits, Ideal.ieee]

/-! ### The key projection's product: rows of the row tile against columns of the weight -/

theorem lhs_kproj_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhs_kproj_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhs_kproj_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhs_kproj_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The product into the zero constant, at `(r, c)`: the sum over `k` of the left operand at `(r, k)` times the right at `(k, c)`. -/
theorem matmul_kproj_apply (x : FVec Ideal S2048x1024 .bf16) (y : FVec Ideal S1024x512 .bf16) (r : Fin 2048) (c : Fin 512) :
    FloatOps.matmul dot_S2048x1024_S1024x512_S2048x512_1_0_0_1_n_n none x y (constant (F := Ideal) S2048x512 .f32 0x00000000#32) (ix2 r c)
      = ∑ k : Fin 1024, x (ix2 r k) * y (ix2 k c) := by
  rw [Ideal.matmul_constant_zero_apply, ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 r c) ((contrEquiv1 dot_S2048x1024_S1024x512_S2048x512_1_0_0_1_n_n 1024 rfl rfl).symm k) = ix2 r k := funext fun a => Fin.ext (by
    match a with
    | ⟨0, _⟩ => exact lhs_kproj_0 _ _
    | ⟨1, _⟩ => exact (lhs_kproj_1 _ _).trans hk)
  have er : dot_S2048x1024_S1024x512_S2048x512_1_0_0_1_n_n.rhsIdx (ix2 r c) ((contrEquiv1 dot_S2048x1024_S1024x512_S2048x512_1_0_0_1_n_n 1024 rfl rfl).symm k) = ix2 k c := funext fun a => Fin.ext (by
    match a with
    | ⟨0, _⟩ => exact (rhs_kproj_0 _ _).trans hk
    | ⟨1, _⟩ => exact rhs_kproj_1 _ _)
  rw [el, er]

/-! ### The query projection's product -/

theorem lhs_qproj_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_qproj_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_qproj_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_qproj_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product into the zero constant, at `(r, c)`: the sum over `k` of the left operand at `(r, k)` times the right at `(k, c)`. -/
theorem matmul_qproj_apply (x : FVec Ideal S512x1024 .bf16) (y : FVec Ideal S1024x512 .bf16) (r : Fin 512) (c : Fin 512) :
    FloatOps.matmul dot_S512x1024_S1024x512_S512x512_1_0_0_1_n_n none x y (constant (F := Ideal) S512x512 .f32 0x00000000#32) (ix2 r c)
      = ∑ k : Fin 1024, x (ix2 r k) * y (ix2 k c) := by
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r c) ((contrEquiv1 dot_S512x1024_S1024x512_S512x512_1_0_0_1_n_n 1024 rfl rfl).symm k) = ix2 r k := funext fun a => Fin.ext (by
    match a with
    | ⟨0, _⟩ => exact lhs_qproj_0 _ _
    | ⟨1, _⟩ => exact (lhs_qproj_1 _ _).trans hk)
  have er : dot_S512x1024_S1024x512_S512x512_1_0_0_1_n_n.rhsIdx (ix2 r c) ((contrEquiv1 dot_S512x1024_S1024x512_S512x512_1_0_0_1_n_n 1024 rfl rfl).symm k) = ix2 k c := funext fun a => Fin.ext (by
    match a with
    | ⟨0, _⟩ => exact (rhs_qproj_0 _ _).trans hk
    | ⟨1, _⟩ => exact rhs_qproj_1 _ _)
  rw [el, er]

/-! ### The scores' product: both operands contract their second axis -/

theorem lhs_scores_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_scores_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_scores_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_scores_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The product into the zero constant, at `(r, j)`: the sum over `h` of the left operand at `(r, h)` times the right at `(j, h)`. -/
theorem matmul_scores_apply (x : FVec Ideal S512x512 .bf16) (y : FVec Ideal S2048x512 .bf16) (r : Fin 512) (j : Fin 2048) :
    FloatOps.matmul dot_S512x512_S2048x512_S512x2048_1_1_0_0_n_n none x y (constant (F := Ideal) S512x2048 .f32 0x00000000#32) (ix2 r j)
      = ∑ h : Fin 512, x (ix2 r h) * y (ix2 j h) := by
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r j) ((contrEquiv1 dot_S512x512_S2048x512_S512x2048_1_1_0_0_n_n 512 rfl rfl).symm k) = ix2 r k := funext fun a => Fin.ext (by
    match a with
    | ⟨0, _⟩ => exact lhs_scores_0 _ _
    | ⟨1, _⟩ => exact (lhs_scores_1 _ _).trans hk)
  have er : dot_S512x512_S2048x512_S512x2048_1_1_0_0_n_n.rhsIdx (ix2 r j) ((contrEquiv1 dot_S512x512_S2048x512_S512x2048_1_1_0_0_n_n 512 rfl rfl).symm k) = ix2 j k := funext fun a => Fin.ext (by
    match a with
    | ⟨0, _⟩ => exact rhs_scores_0 _ _
    | ⟨1, _⟩ => exact (rhs_scores_1 _ _).trans hk)
  rw [el, er]

/-! ### The weights against the value tile -/

theorem lhs_wv_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_wv_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_wv_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_wv_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The product into the zero constant, at `(r, c)`: the sum over `k` of the left operand at `(r, k)` times the right at `(k, c)`. -/
theorem matmul_wv_apply (x : FVec Ideal S512x2048 .bf16) (y : FVec Ideal S2048x1024 .bf16) (r : Fin 512) (c : Fin 1024) :
    FloatOps.matmul dot_S512x2048_S2048x1024_S512x1024_1_0_0_1_n_n none x y (constant (F := Ideal) S512x1024 .f32 0x00000000#32) (ix2 r c)
      = ∑ k : Fin 2048, x (ix2 r k) * y (ix2 k c) := by
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r c) ((contrEquiv1 dot_S512x2048_S2048x1024_S512x1024_1_0_0_1_n_n 2048 rfl rfl).symm k) = ix2 r k := funext fun a => Fin.ext (by
    match a with
    | ⟨0, _⟩ => exact lhs_wv_0 _ _
    | ⟨1, _⟩ => exact (lhs_wv_1 _ _).trans hk)
  have er : dot_S512x2048_S2048x1024_S512x1024_1_0_0_1_n_n.rhsIdx (ix2 r c) ((contrEquiv1 dot_S512x2048_S2048x1024_S512x1024_1_0_0_1_n_n 2048 rfl rfl).symm k) = ix2 k c := funext fun a => Fin.ext (by
    match a with
    | ⟨0, _⟩ => exact (rhs_wv_0 _ _).trans hk
    | ⟨1, _⟩ => exact rhs_wv_1 _ _)
  rw [el, er]

/-! ## The payloads at an entry -/

/-- The key projection's tile: a row tile of X against the transposed weight, plus the bias row. -/
theorem pay0_apply (a : Vec Ideal S2048x1024 .f32) (w : Vec Ideal S1024x512 .f32) (b : Vec Ideal S1x512 .f32) (r : Fin 2048) (h : Fin 512) :
    k0_pay1 (F := Ideal) a w b (ix2 r h) = (∑ k : Fin 1024, a (ix2 r k) * w (ix2 k h)) + b (ix2 0 h) := by
  unfold k0_pay1
  rw [shapeCast_self, shapeCast_self]
  refine (congrArg₂ (· + ·) (matmul_kproj_apply _ _ r h) (broadcastTo_1b_ab_apply _ _ r h)).trans ?_
  rfl

/-- The query projection's tile. -/
theorem pay7_apply (a : Vec Ideal S512x1024 .f32) (w : Vec Ideal S1024x512 .f32) (b : Vec Ideal S1x512 .f32) (r : Fin 512) (h : Fin 512) :
    k1_pay7 (F := Ideal) a w b (ix2 r h) = (∑ k : Fin 1024, a (ix2 r k) * w (ix2 k h)) + b (ix2 0 h) := by
  unfold k1_pay7
  rw [shapeCast_self, shapeCast_self, shapeCast_self]
  refine (congrArg₂ (· + ·) (matmul_qproj_apply _ _ r h) (broadcastTo_1b_ab_apply _ _ r h)).trans ?_
  rfl

/-- The resets: the finite stand-in for −∞, and two zeros. -/
theorem pay4_apply (j : S512x1.Idx) : k1_pay4 (F := Ideal) j = Ideal.ofBits .f32 0xFF333332#32 := by
  unfold k1_pay4
  rw [shapeCast_self]
  rfl
theorem pay5_apply (j : S512x1.Idx) : k1_pay5 (F := Ideal) j = 0 := by
  unfold k1_pay5
  rw [shapeCast_self]
  exact Ideal.ofBits_zero_f32
theorem pay6_apply (j : S512x1024.Idx) : k1_pay6 (F := Ideal) j = 0 := by
  unfold k1_pay6
  rw [shapeCast_self]
  exact Ideal.ofBits_zero_f32

/-- The two identity reshapes before the stores of the accumulator and the maximum. -/
theorem pay1_eq (v : FVec Ideal S512x1024 .f32) : k1_pay1 (F := Ideal) v = v := by
  unfold k1_pay1
  exact shapeCast_self _ _
theorem pay2_eq (v : FVec Ideal S512x1 .f32) : k1_pay2 (F := Ideal) v = v := by
  unfold k1_pay2
  exact shapeCast_self _ _

/-- The scores of a query tile against a key tile. -/
theorem pay8_apply (q : Vec Ideal S512x512 .bf16) (k : Vec Ideal S2048x512 .bf16) (r : Fin 512) (j : Fin 2048) :
    k1_pay8 (F := Ideal) q k (ix2 r j) = ∑ h : Fin 512, q (ix2 r h) * k (ix2 j h) := by
  unfold k1_pay8
  rw [shapeCast_self]
  exact matmul_scores_apply _ _ r j

/-- The new running maximum. -/
theorem pay9_apply (q : Vec Ideal S512x512 .bf16) (k : Vec Ideal S2048x512 .bf16) (m : Vec Ideal S512x1 .f32) (r : Fin 512) :
    k1_pay9 (F := Ideal) q k m (ix2 r 0)
      = max (m (ix2 r 0)) ((Finset.univ : Finset (Fin 2048)).fold max (⊥ : EReal) (fun j => k1_pay8 (F := Ideal) q k (ix2 r j))) := by
  unfold k1_pay9
  rw [maximumf_apply, shapeCast_a_a1_apply]
  refine congrArg (max (m (ix2 r 0))) ?_
  refine (Ideal.multiReduction_maximumf_single (k1_pay8 (F := Ideal) q k) _ reduces_S512x2048_S512 (.inl rfl) rfl (ix1 r)).trans ?_
  have hf : (k1_pay8 (F := Ideal) q k ∘ (reduces_S512x2048_S512).lift (ix1 r)) = fun j : Fin 2048 => k1_pay8 (F := Ideal) q k (ix2 r j) :=
    funext fun j => congrArg (k1_pay8 (F := Ideal) q k) (lift_row r j)
  exact congrArg₂ (fun (b : EReal) (f : Fin 2048 → EReal) => Finset.fold max b f (Finset.univ : Finset (Fin 2048))) ofBits_neg_inf_f32 hf

/-- The rescale of what was accumulated before. -/
theorem pay10_apply (q : Vec Ideal S512x512 .bf16) (k : Vec Ideal S2048x512 .bf16) (m m' : Vec Ideal S512x1 .f32) (r : Fin 512) :
    k1_pay10 (F := Ideal) q k m m' (ix2 r 0) = Ideal.exp (m' (ix2 r 0) - k1_pay9 (F := Ideal) q k m (ix2 r 0)) := by
  unfold k1_pay10
  rfl

/-- This key tile's weights. -/
theorem pay11_apply (q : Vec Ideal S512x512 .bf16) (k : Vec Ideal S2048x512 .bf16) (m : Vec Ideal S512x1 .f32) (r : Fin 512) (j : Fin 2048) :
    k1_pay11 (F := Ideal) q k m (ix2 r j) = Ideal.exp (k1_pay8 (F := Ideal) q k (ix2 r j) - k1_pay9 (F := Ideal) q k m (ix2 r 0)) := by
  unfold k1_pay11
  show Ideal.exp (k1_pay8 (F := Ideal) q k (ix2 r j) - broadcastTo S512x2048 (k1_pay9 (F := Ideal) q k m) broadcasts_S512x1_S512x2048 (ix2 r j)) = _
  rw [broadcastTo_a1_ab_apply]

/-- The new denominator. -/
theorem pay12_apply (q : Vec Ideal S512x512 .bf16) (k : Vec Ideal S2048x512 .bf16) (m m' l : Vec Ideal S512x1 .f32) (r : Fin 512) :
    k1_pay12 (F := Ideal) q k m m' l (ix2 r 0)
      = k1_pay10 (F := Ideal) q k m m' (ix2 r 0) * l (ix2 r 0) + ∑ j : Fin 2048, k1_pay11 (F := Ideal) q k m (ix2 r j) := by
  unfold k1_pay12
  rw [shapeCast_self, addf_apply, mulf_apply, shapeCast_a_a1_apply]
  refine congrArg (fun t : EReal => k1_pay10 (F := Ideal) q k m m' (ix2 r 0) * l (ix2 r 0) + t) ?_
  refine (Ideal.multiReduction_add_single (k1_pay11 (F := Ideal) q k m) _ reduces_S512x2048_S512 (.inl rfl) rfl (ix1 r)).trans ?_
  exact Finset.sum_congr rfl fun j _ => congrArg (k1_pay11 (F := Ideal) q k m) (lift_row r j)

/-- The new accumulator. -/
theorem pay13_apply (q : Vec Ideal S512x512 .bf16) (k : Vec Ideal S2048x512 .bf16) (m m' : Vec Ideal S512x1 .f32) (v : Vec Ideal S2048x1024 .bf16)
    (acc : Vec Ideal S512x1024 .f32) (r : Fin 512) (d : Fin 1024) :
    k1_pay13 (F := Ideal) q k m m' v acc (ix2 r d)
      = k1_pay10 (F := Ideal) q k m m' (ix2 r 0) * acc (ix2 r d) + ∑ j : Fin 2048, k1_pay11 (F := Ideal) q k m (ix2 r j) * v (ix2 j d) := by
  unfold k1_pay13
  rw [shapeCast_self, addf_apply, mulf_apply, broadcastTo_a1_ab_apply]
  refine congrArg (fun t : EReal => k1_pay10 (F := Ideal) q k m m' (ix2 r 0) * acc (ix2 r d) + t) ?_
  exact matmul_wv_apply _ _ r d

/-- The output tile: the accumulator times the reciprocal of the denominator. -/
theorem pay3_apply (l : Vec Ideal S512x1 .f32) (acc : Vec Ideal S512x1024 .f32) (r : Fin 512) (d : Fin 1024) :
    k1_pay3 (F := Ideal) l acc (ix2 r d) = acc (ix2 r d) * Ideal.div 1 (l (ix2 r 0)) := by
  unfold k1_pay3
  rw [mulf_apply, broadcastTo_a1_ab_apply, divf_apply, broadcast_apply]
  show acc (ix2 r d) * Ideal.div (Ideal.ofBits .f32 0x3F800000#32) (l (ix2 r 0)) = _
  rw [Ideal.ofBits_one_f32]

end Cert.KernelIdeal.Pay

end
-- ==== Proof.Val.Spec.lean ====
/-
  The attention output as one function of the six argument arrays, on plain coordinates.
  Q = A·Wqᵀ + bq and K = X·Wkᵀ + bk are the projected queries and keys, S = Q·Kᵀ the scores; each row of S is
  shifted by its maximum (taken from −∞, as a reduction from −∞ joined with −∞ once more), exponentiated,
  normalised by the row's sum (taken from 0) and multiplied into X. Everything is an extended real; the
  operations are the exact ones.
-/
import Idealize.ShloMosaic.PureOps.Ideal
import Idealize.ShloMosaic.Lib.ValueIdx

noncomputable section

namespace Cert.Val

open Idealize.ShloMosaic Idealize.ShloMosaic.ValueIdx

/-- A linear projection's entry: row `i` of the input against row `h` of the weight, plus the bias. -/
def proj {n : Nat} (A : Fin n → Fin 1024 → EReal) (W : Fin 512 → Fin 1024 → EReal) (b : Fin 512 → EReal) (i : Fin n) (h : Fin 512) : EReal :=
  (∑ k : Fin 1024, A i k * W h k) + b h

/-- A score: query row `i` against key row `j`. -/
def score {n n' : Nat} (Q : Fin n → Fin 512 → EReal) (K : Fin n' → Fin 512 → EReal) (i : Fin n) (j : Fin n') : EReal :=
  ∑ h : Fin 512, Q i h * K j h

/-- A row's maximum, as the reference takes it. -/
def rowMax (S : Fin 8192 → Fin 8192 → EReal) (i : Fin 8192) : EReal :=
  max ⊥ ((Finset.univ : Finset (Fin 8192)).fold max ⊥ (fun j => S i j))

/-- The shifted exponential, -/
def expo (S : Fin 8192 → Fin 8192 → EReal) (i j : Fin 8192) : EReal := Ideal.exp (S i j - rowMax S i)

/-- a row's normaliser, -/
def norm (S : Fin 8192 → Fin 8192 → EReal) (i : Fin 8192) : EReal := 0 + ∑ j : Fin 8192, expo S i j

/-- and the output entry. -/
def out (S : Fin 8192 → Fin 8192 → EReal) (X : Fin 8192 → Fin 1024 → EReal) (i : Fin 8192) (d : Fin 1024) : EReal :=
  ∑ j : Fin 8192, Ideal.div (expo S i j) (norm S i) * X j d

/-- An array of rank two read at plain coordinates. -/
abbrev at2 {n0 n1 : Nat} (a : (⟨2, ![n0, n1]⟩ : Shape).Idx → EReal) : Fin n0 → Fin n1 → EReal := fun i j => a (ix2 i j)
/-- An array of rank one read at a plain coordinate. -/
abbrev at1 {n : Nat} (a : (⟨1, ![n]⟩ : Shape).Idx → EReal) : Fin n → EReal := fun i => a (ix1 i)

/-- The scores of the whole problem from the six arrays. -/
def scores (a x : (⟨2, ![8192, 1024]⟩ : Shape).Idx → EReal) (wq : (⟨2, ![512, 1024]⟩ : Shape).Idx → EReal) (bq : (⟨1, ![512]⟩ : Shape).Idx → EReal)
    (wk : (⟨2, ![512, 1024]⟩ : Shape).Idx → EReal) (bk : (⟨1, ![512]⟩ : Shape).Idx → EReal) : Fin 8192 → Fin 8192 → EReal :=
  score (proj (at2 a) (at2 wq) (at1 bq)) (proj (at2 x) (at2 wk) (at1 bk))

/-- THE RESULT: the output array as one function of the six argument arrays. -/
def G (a x : (⟨2, ![8192, 1024]⟩ : Shape).Idx → EReal) (wq : (⟨2, ![512, 1024]⟩ : Shape).Idx → EReal) (bq : (⟨1, ![512]⟩ : Shape).Idx → EReal)
    (wk : (⟨2, ![512, 1024]⟩ : Shape).Idx → EReal) (bk : (⟨1, ![512]⟩ : Shape).Idx → EReal) : (⟨2, ![8192, 1024]⟩ : Shape).Idx → EReal :=
  fun i => out (scores a x wq bq wk bk) (at2 x) (i 0) (i 1)

end Cert.Val

end
-- ==== Proof.Val.KArr.lean ====
/-
  The projection call's result array is the keys K = X·Wkᵀ + bk: each of its four points writes back a row tile whose
  entry (r, h) is ∑_k X_{2048t + r, k}·Wk_{h k} + bk_h — the body's arithmetic on the tile of X, the transposed weight
  and the bias row it was handed — and the four row tiles cover the array.
-/
import proofs.«400922_j71734543778413_3_alg».proof.Proof.KI.Pieces
import proofs.«400922_j71734543778413_3_alg».proof.Proof.KI.Blocks
import proofs.«400922_j71734543778413_3_alg».proof.Proof.KI.Entry
import proofs.«400922_j71734543778413_3_alg».proof.Proof.Val.Pay
import proofs.«400922_j71734543778413_3_alg».proof.Proof.Val.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.KernelIdeal.Pay

variable (m : (ℓ : Loc nD τ sig) → Buf (Elt Ideal) ℓ)

/-- The keys, as an array. -/
def GK (c : Dev nD) : Buf (Elt Ideal) ((cfg0.win 3).arr.view.loc (c : Thread nD τ)) :=
  fun i : S8192x512.Idx => Cert.Val.proj (Cert.Val.at2 (m ((c : Thread nD τ).loc main_arg1))) (Cert.Val.at2 (m ((c : Thread nD τ).loc main_arg4)))
    (Cert.Val.at1 (m ((c : Thread nD τ).loc main_arg5))) (i 0) (i 1)

/-- What point `t` of the projection call writes back is row tile `t` of the keys. -/
theorem flushed0_3 (c : Dev nD) (t : Fin cfg0.N) :
    (dat0 (V1 m) c).flushed 3 t = ((cfg0.win 3).blk t).view.read (Elt Ideal) (GK m c) := by
  have key : (k0_pay1 (F := Ideal) (iblk0 (V1 m) c 0 t) (iblk0 (V1 m) c 1 t) (iblk0 (V1 m) c 2 t) : Vec Ideal S2048x512 .bf16)
      = (((cfg0.win 3).blk t).view.read (Elt Ideal) (GK m c) : Vec Ideal S2048x512 .bf16) := by
    funext y
    obtain ⟨r, h, rfl⟩ : ∃ (r : Fin 2048) (h : Fin 512), y = ix2 r h := ⟨y 0, y 1, eq_ix2 y⟩
    rw [pay0_apply, blk0_3_read, iblk0_2_apply, V1_v2_apply]
    show _ = (∑ k : Fin 1024, Cert.Val.at2 (m ((c : Thread nD τ).loc main_arg1)) _ k
        * Cert.Val.at2 (m ((c : Thread nD τ).loc main_arg4)) h k) + Cert.Val.at1 (m ((c : Thread nD τ).loc main_arg5)) h
    refine congrArg₂ (· + ·) (Finset.sum_congr rfl fun k _ => ?_) rfl
    rw [iblk0_0_apply, iblk0_1_apply, V1_arg1, V1_v1_apply]
  show (cfg0.win 3).cut (grid0.coords t) ((dat0 (V1 m) c).after 3 t) = _
  rw [after0_3, out0_3_eq]
  exact key

/-- So the projection call leaves the keys in its result array. -/
theorem K_arr (c : Dev nD) : (dat0 (V1 m) c).arrAt 3 cfg0.N = GK m c :=
  (dat0 (V1 m) c).arrAt_eq_of_cover 3 (GK m c) (fun t _ => flushed0_3 m c t) (cover0_3_arr c)

/-- The keys' array at plain coordinates, as the attention call finds it. -/
theorem V3_v3_apply (c : Dev nD) (j : Fin 8192) (h : Fin 512) :
    (V3 m c main_v3 : S8192x512.Idx → EReal) (ix2 j h)
      = Cert.Val.proj (Cert.Val.at2 (m ((c : Thread nD τ).loc main_arg1))) (Cert.Val.at2 (m ((c : Thread nD τ).loc main_arg4)))
          (Cert.Val.at1 (m ((c : Thread nD τ).loc main_arg5))) j h := by
  rw [V3_v3, K_arr]
  rfl

end Cert.KernelIdeal.Fr

end
-- ==== Proof.Val.Math.lean ====
/-
  The online-softmax recurrence on one row, over the extended reals, when every score and value is a real number.
  A row's state after some set P of keys is a real maximum-so-far m, the denominator ∑_{j∈P} e^{s_j − m} and the
  accumulator ∑_{j∈P} e^{s_j − m}·x_j. One step with a further block B of keys moves m to m' = max(m, max_B s),
  rescales both sums by e^{m − m'} and adds the block's terms: the state is the same three quantities for P ∪ B.
  At the end the accumulator over the denominator does not depend on m: it is the softmax-weighted sum, which is
  also what shifting by the true row maximum and normalising gives.

  Every lemma here is an identity of real numbers carried through the embedding ℝ → [−∞, +∞]: the embedding
  commutes with sums, products, differences and maxima, the exponential of an embedded real is the embedded real
  exponential, and division by an embedded non-zero real is multiplication by its embedded reciprocal.
-/
import Idealize.ShloMosaic.PureOps.Ideal
import Mathlib.Analysis.SpecialFunctions.Exp
import Mathlib.Data.EReal.Operations

noncomputable section

namespace Cert.Val.Math

open Idealize.ShloMosaic

/-- The exponential of a real, read on the extended reals, is the real exponential. -/
theorem exp_coe (x : ℝ) : Ideal.exp (x : EReal) = ((Real.exp x : ℝ) : EReal) := rfl

/-- A finite sum of reals, read on the extended reals. -/
theorem coe_sum {J : Type} (P : Finset J) (f : J → ℝ) : ((∑ j ∈ P, f j : ℝ) : EReal) = ∑ j ∈ P, (f j : EReal) := by
  classical
  induction P using Finset.induction_on with
  | empty => simp
  | insert a P ha ih => rw [Finset.sum_insert ha, Finset.sum_insert ha, EReal.coe_add, ih]

/-- The maximum of two reals, read on the extended reals. -/
theorem coe_max (a b : ℝ) : ((max a b : ℝ) : EReal) = max (a : EReal) (b : EReal) :=
  EReal.coe_strictMono.monotone.map_max

/-- The maximum of finitely many reals, taken from −∞ on the extended reals, is one of them (the set is not empty). -/
theorem fold_max_coe {J : Type} [DecidableEq J] (B : Finset J) (hB : B.Nonempty) (s : J → ℝ) :
    ∃ b ∈ B, B.fold max (⊥ : EReal) (fun j => (s j : EReal)) = (s b : EReal) ∧ ∀ j ∈ B, s j ≤ s b := by
  induction B using Finset.induction_on with
  | empty => exact absurd hB Finset.not_nonempty_empty
  | insert a B ha ih =>
    rw [Finset.fold_insert ha]
    rcases B.eq_empty_or_nonempty with rfl | hne
    · -- a single key: max(s a, −∞) = s a
      refine ⟨a, Finset.mem_insert_self _ _, ?_, ?_⟩
      · rw [Finset.fold_empty, max_eq_left bot_le]
      · intro j hj
        rw [Finset.mem_insert] at hj
        rcases hj with rfl | hj
        · exact le_rfl
        · exact absurd hj (Finset.notMem_empty _)
    · -- the maximum over the rest is s b for some b; the new maximum is the larger of s a and s b
      obtain ⟨b, hb, hfold, hmax⟩ := ih hne
      rw [hfold]
      rcases le_total (s a) (s b) with h | h
      · refine ⟨b, Finset.mem_insert_of_mem hb, ?_, ?_⟩
        · rw [max_eq_right (EReal.coe_le_coe_iff.mpr h)]
        · intro j hj
          rcases Finset.mem_insert.mp hj with rfl | hj
          · exact h
          · exact hmax j hj
      · refine ⟨a, Finset.mem_insert_self _ _, ?_, ?_⟩
        · rw [max_eq_left (EReal.coe_le_coe_iff.mpr h)]
        · intro j hj
          rcases Finset.mem_insert.mp hj with rfl | hj
          · exact le_rfl
          · exact (hmax j hj).trans h

/-- The step on the reals: e^{m − m'}·∑_{P} e^{s_j − m}·w_j + ∑_{B} e^{s_j − m'}·w_j = ∑_{P ∪ B} e^{s_j − m'}·w_j,
    since e^{m − m'}·e^{s_j − m} = e^{s_j − m'} and P, B are disjoint. -/
theorem real_step {J : Type} [DecidableEq J] (P B : Finset J) (hPB : Disjoint P B) (s w : J → ℝ) (mr mr' : ℝ) :
    Real.exp (mr - mr') * ∑ j ∈ P, Real.exp (s j - mr) * w j + ∑ j ∈ B, Real.exp (s j - mr') * w j
      = ∑ j ∈ P ∪ B, Real.exp (s j - mr') * w j := by
  rw [Finset.sum_union hPB, Finset.mul_sum]
  congr 1
  refine Finset.sum_congr rfl fun j _ => ?_
  rw [← mul_assoc, ← Real.exp_add]
  congr 2
  ring

/-- The step's left-hand side on the extended reals is the embedding of its real left-hand side. -/
theorem step_coe {J : Type} (P B : Finset J) (s w : J → ℝ) (mr mr' : ℝ) :
    Ideal.exp ((mr : EReal) - (mr' : EReal)) * ((∑ j ∈ P, Real.exp (s j - mr) * w j : ℝ) : EReal)
        + ∑ j ∈ B, Ideal.exp ((s j : EReal) - (mr' : EReal)) * (w j : EReal)
      = ((Real.exp (mr - mr') * ∑ j ∈ P, Real.exp (s j - mr) * w j
          + ∑ j ∈ B, Real.exp (s j - mr') * w j : ℝ) : EReal) := by
  have hB : ∑ j ∈ B, Ideal.exp ((s j : EReal) - (mr' : EReal)) * (w j : EReal)
      = ((∑ j ∈ B, Real.exp (s j - mr') * w j : ℝ) : EReal) := by
    rw [coe_sum]
    refine Finset.sum_congr rfl fun j _ => ?_
    rw [← EReal.coe_sub, exp_coe, ← EReal.coe_mul]
  rw [hB, ← EReal.coe_sub, exp_coe, ← EReal.coe_mul, ← EReal.coe_add]

/-- ONE STEP. From the state for the keys `P` at the real maximum-so-far `mr`, a step with the disjoint non-empty
    block `B` gives the state for `P ∪ B` at a real `mr'`: the new maximum is real, the rescaled denominator plus the
    block's exponentials is the denominator for `P ∪ B`, and likewise for the accumulator against any real values `x`. -/
theorem step {J : Type} [DecidableEq J] (P B : Finset J) (hPB : Disjoint P B) (hB : B.Nonempty) (s : J → ℝ) (mr : ℝ) :
    ∃ mr' : ℝ, max (mr : EReal) (B.fold max (⊥ : EReal) (fun j => (s j : EReal))) = (mr' : EReal) ∧
      (Ideal.exp ((mr : EReal) - (mr' : EReal)) * ((∑ j ∈ P, Real.exp (s j - mr) : ℝ) : EReal)
          + ∑ j ∈ B, Ideal.exp ((s j : EReal) - (mr' : EReal))
        = ((∑ j ∈ P ∪ B, Real.exp (s j - mr') : ℝ) : EReal)) ∧
      ∀ x : J → ℝ,
        Ideal.exp ((mr : EReal) - (mr' : EReal)) * ((∑ j ∈ P, Real.exp (s j - mr) * x j : ℝ) : EReal)
          + ∑ j ∈ B, Ideal.exp ((s j : EReal) - (mr' : EReal)) * (x j : EReal)
        = ((∑ j ∈ P ∪ B, Real.exp (s j - mr') * x j : ℝ) : EReal) := by
  obtain ⟨b, _, hfold, _⟩ := fold_max_coe B hB s
  refine ⟨max mr (s b), ?_, ?_, ?_⟩
  · rw [hfold, coe_max]
  · -- the denominator is the accumulator against the constant values 1
    have h := step_coe P B s (fun _ => (1 : ℝ)) mr (max mr (s b))
    rw [real_step P B hPB s (fun _ => (1 : ℝ)) mr (max mr (s b))] at h
    simpa only [mul_one, EReal.coe_one] using h
  · intro x
    rw [step_coe P B s x mr (max mr (s b)), real_step P B hPB s x mr (max mr (s b))]

/-- Normalised weights do not depend on the shift: ∑_j e^{s_j − m}·x_j / ∑_k e^{s_k − m} is the same for every real m,
    because e^{s_j − M} = e^{m − M}·e^{s_j − m} and the common factor e^{m − M} > 0 cancels. -/
theorem real_final {J : Type} [Fintype J] [Nonempty J] (s x : J → ℝ) (mr M : ℝ) :
    (∑ j, Real.exp (s j - mr) * x j) * (1 * (1 / ∑ j, Real.exp (s j - mr)))
      = ∑ j, Real.exp (s j - M) * (1 / ∑ k, Real.exp (s k - M)) * x j := by
  have hc : ∀ j, Real.exp (s j - M) = Real.exp (mr - M) * Real.exp (s j - mr) := by
    intro j
    rw [← Real.exp_add]
    congr 1
    ring
  have hD : (0 : ℝ) < ∑ j, Real.exp (s j - mr) :=
    Finset.sum_pos (fun j _ => Real.exp_pos _) Finset.univ_nonempty
  have hE : (0 : ℝ) < Real.exp (mr - M) := Real.exp_pos _
  simp only [hc]
  rw [← Finset.mul_sum]
  have : ∀ j, Real.exp (mr - M) * Real.exp (s j - mr) * (1 / (Real.exp (mr - M) * ∑ k, Real.exp (s k - mr))) * x j
      = (1 / ∑ k, Real.exp (s k - mr)) * (Real.exp (s j - mr) * x j) := by
    intro j
    field_simp
  simp only [this]
  rw [← Finset.mul_sum]
  ring

/-- THE END. Whatever real `mr` the recurrence ended at, its accumulator times the reciprocal of its denominator is
    what shifting by the row maximum (taken from −∞, joined with −∞), exponentiating, dividing by the sum (taken
    from 0) and weighting the values gives. -/
theorem final {J : Type} [Fintype J] [DecidableEq J] [Nonempty J] (s x : J → ℝ) (mr : ℝ) :
    ((∑ j, Real.exp (s j - mr) * x j : ℝ) : EReal) * Ideal.div 1 ((∑ j, Real.exp (s j - mr) : ℝ) : EReal)
      = ∑ j, Ideal.div (Ideal.exp ((s j : EReal) - max ⊥ ((Finset.univ : Finset J).fold max (⊥ : EReal) (fun k => (s k : EReal)))))
            (0 + ∑ k, Ideal.exp ((s k : EReal) - max ⊥ ((Finset.univ : Finset J).fold max (⊥ : EReal) (fun k' => (s k' : EReal)))))
          * (x j : EReal) := by
  -- the row maximum is a real, s b
  obtain ⟨b, _, hfold, _⟩ := fold_max_coe (Finset.univ : Finset J) Finset.univ_nonempty s
  rw [hfold, max_eq_right bot_le]
  -- both denominators are positive reals
  have hD : (0 : ℝ) < ∑ j, Real.exp (s j - mr) :=
    Finset.sum_pos (fun j _ => Real.exp_pos _) Finset.univ_nonempty
  have hD' : (0 : ℝ) < ∑ k, Real.exp (s k - s b) :=
    Finset.sum_pos (fun j _ => Real.exp_pos _) Finset.univ_nonempty
  have hsum : (0 : EReal) + ∑ k, Ideal.exp ((s k : EReal) - (s b : EReal)) = ((∑ k, Real.exp (s k - s b) : ℝ) : EReal) := by
    rw [zero_add, coe_sum]
    refine Finset.sum_congr rfl fun k _ => ?_
    rw [← EReal.coe_sub, exp_coe]
  rw [hsum, Ideal.div_coe hD.ne', ← EReal.coe_one, ← EReal.coe_mul, ← EReal.coe_mul, real_final s x mr (s b), coe_sum]
  refine Finset.sum_congr rfl fun j _ => ?_
  rw [Ideal.div_coe hD'.ne', ← EReal.coe_sub, exp_coe, ← EReal.coe_mul, ← EReal.coe_mul]

end Cert.Val.Math

end
-- ==== Proof.Val.Row.lean ====
/-
  The online-softmax step in the kernel's own indexing. The 8192 keys come in four tiles of 2048; after key tile kv the
  processed keys are the prefix of the first 2048·(kv+1). A step at key tile kv takes its maximum, its exponentials' sum
  and its weighted values' sum over the tile's own 2048 columns, which are the keys 2048·kv + j'. So the state for the
  prefix of 2048·kv keys becomes the state for the prefix of 2048·(kv+1); the empty prefix is the reset state, and the
  prefix of all four tiles is every key.
-/
import proofs.«400922_j71734543778413_3_alg».proof.Proof.Val.Math

noncomputable section

namespace Cert.Val.Row

open Idealize.ShloMosaic

/-- Column `j'` of key tile `kv` is key `2048·kv + j'`. -/
def emb (kv : Fin 4) : Fin 2048 ↪ Fin 8192 :=
  ⟨fun j => ⟨2048 * kv.val + j.val, by have := kv.isLt; have := j.isLt; omega⟩,
   fun a b h => by have := congrArg Fin.val h; simp only at this; exact Fin.ext (by omega)⟩

theorem emb_val (kv : Fin 4) (j : Fin 2048) : (emb kv j).val = 2048 * kv.val + j.val := rfl

/-- The first `2048·n` keys. -/
def pre (n : ℕ) : Finset (Fin 8192) := Finset.univ.filter fun j => j.val < 2048 * n

theorem pre_zero : pre 0 = ∅ := by
  ext j
  simp only [pre, Finset.mem_filter, Finset.mem_univ, true_and, Finset.notMem_empty, iff_false]
  omega

theorem pre_four : pre 4 = Finset.univ := by
  ext j
  simp only [pre, Finset.mem_filter, Finset.mem_univ, true_and, iff_true]
  have := j.isLt
  omega

/-- The prefix of `2048·(kv+1)` keys is the prefix of `2048·kv` keys together with key tile `kv`: a key `j` with
    `2048·kv ≤ j < 2048·(kv+1)` is column `j − 2048·kv` of that tile. -/
theorem pre_succ (kv : Fin 4) : pre (kv.val + 1) = pre kv.val ∪ Finset.univ.map (emb kv) := by
  ext j
  simp only [pre, Finset.mem_filter, Finset.mem_univ, true_and, Finset.mem_union, Finset.mem_map]
  constructor
  · intro h
    by_cases hj : j.val < 2048 * kv.val
    · exact Or.inl hj
    · refine Or.inr ⟨⟨j.val - 2048 * kv.val, by omega⟩, ?_⟩
      apply Fin.ext
      rw [emb_val]
      simp only
      omega
  · rintro (h | ⟨j', rfl⟩)
    · omega
    · rw [emb_val]
      have := j'.isLt
      omega

/-- Key tile `kv` lies past the prefix of `2048·kv` keys. -/
theorem pre_disjoint (kv : Fin 4) : Disjoint (pre kv.val) (Finset.univ.map (emb kv)) := by
  rw [Finset.disjoint_left]
  intro j hj hj'
  simp only [pre, Finset.mem_filter, Finset.mem_univ, true_and] at hj
  obtain ⟨j', _, rfl⟩ := Finset.mem_map.mp hj'
  rw [emb_val] at hj
  omega

/-- A key tile has columns. -/
theorem tile_nonempty (kv : Fin 4) : (Finset.univ.map (emb kv)).Nonempty :=
  Finset.univ_nonempty.map

/-- ONE STEP at key tile `kv`, in the kernel's form: from the state for the first `2048·kv` keys at the real
    maximum-so-far `mr`, the new maximum (the old one joined with the tile's maximum taken from −∞) is a real `mr'`,
    and the rescaled denominator plus the tile's exponentials, and the rescaled accumulator plus the tile's weighted
    values, are the state for the first `2048·(kv+1)` keys at `mr'`. -/
theorem step (kv : Fin 4) (s : Fin 8192 → ℝ) (mr : ℝ) :
    ∃ mr' : ℝ,
      max (mr : EReal) ((Finset.univ : Finset (Fin 2048)).fold max (⊥ : EReal) (fun j => ((s (emb kv j) : ℝ) : EReal))) = (mr' : EReal) ∧
      (Ideal.exp ((mr : EReal) - (mr' : EReal)) * ((∑ j ∈ pre kv.val, Real.exp (s j - mr) : ℝ) : EReal)
          + ∑ j : Fin 2048, Ideal.exp (((s (emb kv j) : ℝ) : EReal) - (mr' : EReal))
        = ((∑ j ∈ pre (kv.val + 1), Real.exp (s j - mr') : ℝ) : EReal)) ∧
      ∀ x : Fin 8192 → ℝ,
        Ideal.exp ((mr : EReal) - (mr' : EReal)) * ((∑ j ∈ pre kv.val, Real.exp (s j - mr) * x j : ℝ) : EReal)
          + ∑ j : Fin 2048, Ideal.exp (((s (emb kv j) : ℝ) : EReal) - (mr' : EReal)) * ((x (emb kv j) : ℝ) : EReal)
        = ((∑ j ∈ pre (kv.val + 1), Real.exp (s j - mr') * x j : ℝ) : EReal) := by
  -- the general step at P = the prefix, B = the tile's image; sums and the maximum over the image are re-indexed
  -- by the tile's columns, and P ∪ B is the next prefix
  obtain ⟨mr', hmax, hden, hacc⟩ :=
    Math.step (pre kv.val) (Finset.univ.map (emb kv)) (pre_disjoint kv) (tile_nonempty kv) s mr
  refine ⟨mr', ?_, ?_, ?_⟩
  · rw [Finset.fold_map] at hmax
    exact hmax
  · rw [Finset.sum_map, ← pre_succ] at hden
    exact hden
  · intro x
    have h := hacc x
    rw [Finset.sum_map, ← pre_succ] at h
    exact h

/-- THE END: after all four key tiles the accumulator times the reciprocal of the denominator is the
    softmax-weighted sum as the reference forms it. -/
theorem final (s x : Fin 8192 → ℝ) (mr : ℝ) :
    ((∑ j ∈ pre 4, Real.exp (s j - mr) * x j : ℝ) : EReal) * Ideal.div 1 ((∑ j ∈ pre 4, Real.exp (s j - mr) : ℝ) : EReal)
      = ∑ j : Fin 8192, Ideal.div (Ideal.exp ((s j : EReal) - max ⊥ ((Finset.univ : Finset (Fin 8192)).fold max (⊥ : EReal) (fun k => (s k : EReal)))))
            (0 + ∑ k : Fin 8192, Ideal.exp ((s k : EReal) - max ⊥ ((Finset.univ : Finset (Fin 8192)).fold max (⊥ : EReal) (fun k' => (s k' : EReal)))))
          * (x j : EReal) := by
  rw [pre_four]
  exact Math.final s x mr

end Cert.Val.Row

end
-- ==== Proof.Val.Step.lean ====
/-
  One attention step on one row, as the kernel's arithmetic computes it. If a row's scores against this key tile and the
  tile's values are real, and the carried maximum, denominator and accumulator of the row are the state for the keys
  before this tile at a real maximum-so-far, then what the step leaves is the state for the keys through this tile at a
  new real maximum-so-far. After the fourth tile the output entry is the softmax-weighted sum as the reference forms it.
-/
import proofs.«400922_j71734543778413_3_alg».proof.Proof.Val.Pay
import proofs.«400922_j71734543778413_3_alg».proof.Proof.Val.Row

noncomputable section

namespace Cert.KernelIdeal.Step

open Cert.KernelIdeal Cert.KernelIdeal.Gen Cert.KernelIdeal.Pay
open Idealize.ShloMosaic Idealize.ShloMosaic.ValueIdx
open Cert.Val.Row

/-- ONE STEP on row `r` at key tile `kv`. -/
theorem step_row (kv : Fin 4) (q : Vec Ideal S512x512 .bf16) (k : Vec Ideal S2048x512 .bf16) (v : Vec Ideal S2048x1024 .bf16)
    (M L : Vec Ideal S512x1 .f32) (A : Vec Ideal S512x1024 .f32) (r : Fin 512)
    (s : Fin 8192 → ℝ) (x : Fin 8192 → Fin 1024 → ℝ) (mr : ℝ)
    (hs : ∀ j : Fin 2048, k1_pay8 (F := Ideal) q k (ix2 r j) = ((s (emb kv j) : ℝ) : EReal))
    (hv : ∀ (j : Fin 2048) (d : Fin 1024), v (ix2 j d) = ((x (emb kv j) d : ℝ) : EReal))
    (hM : M (ix2 r 0) = (mr : EReal))
    (hL : L (ix2 r 0) = ((∑ j ∈ pre kv.val, Real.exp (s j - mr) : ℝ) : EReal))
    (hA : ∀ d : Fin 1024, A (ix2 r d) = ((∑ j ∈ pre kv.val, Real.exp (s j - mr) * x j d : ℝ) : EReal)) :
    ∃ mr' : ℝ, k1_pay2 (F := Ideal) (k1_pay9 (F := Ideal) q k M) (ix2 r 0) = (mr' : EReal)
      ∧ k1_pay12 (F := Ideal) q k M M L (ix2 r 0) = ((∑ j ∈ pre (kv.val + 1), Real.exp (s j - mr') : ℝ) : EReal)
      ∧ ∀ d : Fin 1024, k1_pay1 (F := Ideal) (k1_pay13 (F := Ideal) q k M M v A) (ix2 r d)
          = ((∑ j ∈ pre (kv.val + 1), Real.exp (s j - mr') * x j d : ℝ) : EReal) := by
  obtain ⟨mr', h1, h2, h3⟩ := Cert.Val.Row.step kv s mr
  have e9 : k1_pay9 (F := Ideal) q k M (ix2 r 0) = (mr' : EReal) := by
    rw [pay9_apply, hM]
    simp only [hs]
    exact h1
  have e10 : k1_pay10 (F := Ideal) q k M M (ix2 r 0) = Ideal.exp ((mr : EReal) - (mr' : EReal)) := by
    rw [pay10_apply, hM, e9]
  have e11 : ∀ j : Fin 2048, k1_pay11 (F := Ideal) q k M (ix2 r j) = Ideal.exp (((s (emb kv j) : ℝ) : EReal) - (mr' : EReal)) := by
    intro j
    rw [pay11_apply, hs, e9]
  refine ⟨mr', ?_, ?_, ?_⟩
  · rw [pay2_eq]; exact e9
  · rw [pay12_apply, e10, hL]
    simp only [e11]
    exact h2
  · intro d
    rw [pay1_eq, pay13_apply, e10, hA d]
    simp only [e11, hv]
    exact h3 (fun j => x j d)

/-- THE OUTPUT ENTRY after the fourth key tile. -/
theorem out_row (l : Vec Ideal S512x1 .f32) (a : Vec Ideal S512x1024 .f32) (r : Fin 512) (d : Fin 1024)
    (s x : Fin 8192 → ℝ) (mr : ℝ)
    (hl : l (ix2 r 0) = ((∑ j ∈ pre 4, Real.exp (s j - mr) : ℝ) : EReal))
    (ha : a (ix2 r d) = ((∑ j ∈ pre 4, Real.exp (s j - mr) * x j : ℝ) : EReal)) :
    k1_pay3 (F := Ideal) l a (ix2 r d)
      = ∑ j : Fin 8192, Ideal.div (Ideal.exp ((s j : EReal) - max ⊥ ((Finset.univ : Finset (Fin 8192)).fold max (⊥ : EReal) (fun k => (s k : EReal)))))
            (0 + ∑ k : Fin 8192, Ideal.exp ((s k : EReal) - max ⊥ ((Finset.univ : Finset (Fin 8192)).fold max (⊥ : EReal) (fun k' => (s k' : EReal)))))
          * (x j : EReal) := by
  rw [pay3_apply, ha, hl]
  exact Cert.Val.Row.final s x mr

end Cert.KernelIdeal.Step

end
-- ==== Proof.Val.Inv.lean ====
/-
  The attention call, point by point. Point t works on query tile t / 4 with key tile t % 4. After it, for every row r
  of the query tile (row i = 512·(t/4) + r of the problem): the projected-queries scratch holds Q's rows of the tile;
  the maximum scratch holds a real m_r, the denominator scratch ∑_{j < 2048·(t%4+1)} e^{S_ij − m_r} and the accumulator
  scratch ∑_{j < 2048·(t%4+1)} e^{S_ij − m_r}·X_jd; and at a last key tile the output tile's buffer holds the specified
  output's rows. By induction on the point: a first key tile starts from the reset state (the finite stand-in for −∞, 0,
  0: the state for no keys), a later one from what the point before left; each is one step of the row recurrence.
-/
import proofs.«400922_j71734543778413_3_alg».proof.Proof.KI.Pieces
import proofs.«400922_j71734543778413_3_alg».proof.Proof.KI.Blocks
import proofs.«400922_j71734543778413_3_alg».proof.Proof.KI.Entry
import proofs.«400922_j71734543778413_3_alg».proof.Proof.Val.KArr
import proofs.«400922_j71734543778413_3_alg».proof.Proof.Val.Step
import proofs.«400922_j71734543778413_3_alg».proof.Proof.Val.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.KernelIdeal.Pay Cert.KernelIdeal.Step Cert.Val Cert.Val.Row

/-- The finite stand-in for −∞ is a real number. -/
theorem neg_real : ∃ r : ℝ, Ideal.ofBits .f32 0xFF333332#32 = (r : EReal) := by
  have h1 : ¬ ((0xFF333332#32 : BitVec 32).extractLsb' 23 8).toNat = 2 ^ 8 - 1 := by decide
  have h2 : ¬ ((0xFF333332#32 : BitVec 32).extractLsb' 23 8).toNat = 0 := by decide
  have e : Ideal.ofBits .f32 (0xFF333332#32 : BitVec 32) = Ideal.ieee 8 23 (0xFF333332#32 : BitVec 32) := rfl
  rw [e]
  unfold Ideal.ieee
  dsimp only
  rw [if_neg h1, if_neg h2]
  exact ⟨_, rfl⟩

section
variable (m : (ℓ : Loc nD τ sig) → Buf (Elt Ideal) ℓ) (c : Dev nD)

abbrev argA : S8192x1024.Idx → EReal := m ((c : Thread nD τ).loc main_arg0)
abbrev argX : S8192x1024.Idx → EReal := m ((c : Thread nD τ).loc main_arg1)
abbrev argWq : S512x1024.Idx → EReal := m ((c : Thread nD τ).loc main_arg2)
abbrev argBq : S512.Idx → EReal := m ((c : Thread nD τ).loc main_arg3)
abbrev argWk : S512x1024.Idx → EReal := m ((c : Thread nD τ).loc main_arg4)
abbrev argBk : S512.Idx → EReal := m ((c : Thread nD τ).loc main_arg5)

/-- The problem's scores. -/
abbrev SS : Fin 8192 → Fin 8192 → EReal := scores (argA m c) (argX m c) (argWq m c) (argBq m c) (argWk m c) (argBk m c)

/-- Row `r` of the query tile of position `n` is row `512·(n/4) + r` of the problem. -/
def rowIdx (n : ℕ) (hn : n < cfg1.N) (r : Fin 512) : Fin 8192 :=
  ⟨512 * (n / 4) + r.val, by have := lt_of_lt_of_eq hn (show cfg1.N = 64 from N_1); have := r.isLt; omega⟩

/-- Key tile `t % 4`. -/
def kvOf (t : Fin cfg1.N) : Fin 4 := ⟨t.val % 4, Nat.mod_lt _ (by decide)⟩

/-! ## The tiles a point is handed -/

/-- The projected query tile, as the first key tile's body forms it. -/
theorem q_tile (t : Fin cfg1.N) (r h : Fin 512) :
    (k1_pay7 (F := Ideal) (iblk1 (V3 m) c 0 t) (iblk1 (V3 m) c 1 t) (iblk1 (V3 m) c 2 t)) (ix2 r h) = proj (at2 (argA m c)) (at2 (argWq m c)) (at1 (argBq m c)) (rowIdx t.val t.isLt r) h := by
  rw [pay7_apply, iblk1_2_apply, V3_v5_apply]
  show _ = (∑ k : Fin 1024, argA m c (ix2 (rowIdx t.val t.isLt r) k) * argWq m c (ix2 h k)) + argBq m c (ix1 h)
  refine congrArg₂ (· + ·) (Finset.sum_congr rfl fun k _ => ?_) rfl
  rw [iblk1_0_apply, iblk1_1_apply, V3_arg0, V3_v0_apply]
  rfl

/-- The key tile. -/
theorem k_tile (t : Fin cfg1.N) (j : Fin 2048) (h : Fin 512) :
    ((iblk1 (V3 m) c 3 t) : Vec Ideal S2048x512 .bf16) (ix2 j h) = proj (at2 (argX m c)) (at2 (argWk m c)) (at1 (argBk m c)) (emb (kvOf t) j) h := by
  rw [iblk1_3_apply, V3_v3_apply]
  rfl

/-- The value tile. -/
theorem v_tile (t : Fin cfg1.N) (j : Fin 2048) (d : Fin 1024) :
    ((iblk1 (V3 m) c 4 t) : Vec Ideal S2048x1024 .bf16) (ix2 j d) = at2 (argX m c) (emb (kvOf t) j) d := by
  rw [iblk1_4_apply, V3_v4_apply]
  rfl

/-- The scores of a query tile holding Q's rows against the key tile. -/
theorem s_tile (t : Fin cfg1.N) (q : Vec Ideal S512x512 .bf16)
    (hq : ∀ r h : Fin 512, q (ix2 r h) = proj (at2 (argA m c)) (at2 (argWq m c)) (at1 (argBq m c)) (rowIdx t.val t.isLt r) h)
    (r : Fin 512) (j : Fin 2048) :
    k1_pay8 (F := Ideal) q (iblk1 (V3 m) c 3 t) (ix2 r j) = SS m c (rowIdx t.val t.isLt r) (emb (kvOf t) j) := by
  rw [pay8_apply]
  show _ = ∑ h : Fin 512, proj (at2 (argA m c)) (at2 (argWq m c)) (at1 (argBq m c)) (rowIdx t.val t.isLt r) h
      * proj (at2 (argX m c)) (at2 (argWk m c)) (at1 (argBk m c)) (emb (kvOf t) j) h
  exact Finset.sum_congr rfl fun h _ => by rw [hq, k_tile]

/-! ## One point -/

variable (sr : Fin 8192 → Fin 8192 → ℝ) (xr : Fin 8192 → Fin 1024 → ℝ)

/-- One step at point `t` on row `r`, from any carried state that is the row's state for the keys before this tile. -/
theorem step_at (hsr : ∀ i j, SS m c i j = ((sr i j : ℝ) : EReal)) (hxr : ∀ j d, at2 (argX m c) j d = ((xr j d : ℝ) : EReal))
    (t : Fin cfg1.N) (q : Vec Ideal S512x512 .bf16) (M L : Vec Ideal S512x1 .f32) (A : Vec Ideal S512x1024 .f32)
    (hq : ∀ r h : Fin 512, q (ix2 r h) = proj (at2 (argA m c)) (at2 (argWq m c)) (at1 (argBq m c)) (rowIdx t.val t.isLt r) h)
    (r : Fin 512) (mr : ℝ) (hM : M (ix2 r 0) = (mr : EReal))
    (hL : L (ix2 r 0) = ((∑ j ∈ pre (t.val % 4), Real.exp (sr (rowIdx t.val t.isLt r) j - mr) : ℝ) : EReal))
    (hA : ∀ d : Fin 1024, A (ix2 r d) = ((∑ j ∈ pre (t.val % 4), Real.exp (sr (rowIdx t.val t.isLt r) j - mr) * xr j d : ℝ) : EReal)) :
    ∃ mr' : ℝ, k1_pay2 (F := Ideal) (k1_pay9 (F := Ideal) q (iblk1 (V3 m) c 3 t) M) (ix2 r 0) = (mr' : EReal)
      ∧ k1_pay12 (F := Ideal) q (iblk1 (V3 m) c 3 t) M M L (ix2 r 0)
          = ((∑ j ∈ pre (t.val % 4 + 1), Real.exp (sr (rowIdx t.val t.isLt r) j - mr') : ℝ) : EReal)
      ∧ ∀ d : Fin 1024, k1_pay1 (F := Ideal) (k1_pay13 (F := Ideal) q (iblk1 (V3 m) c 3 t) M M (iblk1 (V3 m) c 4 t) A) (ix2 r d)
          = ((∑ j ∈ pre (t.val % 4 + 1), Real.exp (sr (rowIdx t.val t.isLt r) j - mr') * xr j d : ℝ) : EReal) :=
  step_row (kvOf t) q (iblk1 (V3 m) c 3 t) (iblk1 (V3 m) c 4 t) M L A r (sr (rowIdx t.val t.isLt r)) xr mr
    (fun j => (s_tile m c t q hq r j).trans (hsr _ _))
    (fun j d => (v_tile m c t j d).trans (hxr _ _)) hM hL hA

/-! ## The invariant -/

/-- What holds after the body at position `n`. -/
def Inv (n : ℕ) (hn : n < cfg1.N) : Prop :=
  (∀ r h : Fin 512, ((outsAt1 (V3 m) c n hn).2.2.2.2 : Vec Ideal S512x512 .bf16) (ix2 r h)
      = proj (at2 (argA m c)) (at2 (argWq m c)) (at1 (argBq m c)) (rowIdx n hn r) h)
  ∧ (∀ r : Fin 512, ∃ mr : ℝ,
      ((outsAt1 (V3 m) c n hn).2.1 : Vec Ideal S512x1 .f32) (ix2 r 0) = (mr : EReal)
      ∧ ((outsAt1 (V3 m) c n hn).2.2.1 : Vec Ideal S512x1 .f32) (ix2 r 0)
          = ((∑ j ∈ pre (n % 4 + 1), Real.exp (sr (rowIdx n hn r) j - mr) : ℝ) : EReal)
      ∧ ∀ d : Fin 1024, ((outsAt1 (V3 m) c n hn).2.2.2.1 : Vec Ideal S512x1024 .f32) (ix2 r d)
          = ((∑ j ∈ pre (n % 4 + 1), Real.exp (sr (rowIdx n hn r) j - mr) * xr j d : ℝ) : EReal))
  ∧ (n % 4 = 3 → ∀ (r : Fin 512) (d : Fin 1024), ((outsAt1 (V3 m) c n hn).1 : Vec Ideal S512x1024 .f32) (ix2 r d)
      = out (SS m c) (at2 (argX m c)) (rowIdx n hn r) d)

/-- What a first key tile leaves, as the arithmetic's terms. -/
theorem stA_eq (t : Fin cfg1.N) (h0 : t.val % 4 = 0) (h1 : ¬t.val % 4 = 3) :
    stA (V3 m) c t h0 h1 = (VO1.read (Elt Ideal) VO1.junk,
      k1_pay2 (F := Ideal) (k1_pay9 (F := Ideal) (k1_pay7 (F := Ideal) (iblk1 (V3 m) c 0 t) (iblk1 (V3 m) c 1 t) (iblk1 (V3 m) c 2 t)) (iblk1 (V3 m) c 3 t) (k1_pay4 (F := Ideal))),
      k1_pay12 (F := Ideal) (k1_pay7 (F := Ideal) (iblk1 (V3 m) c 0 t) (iblk1 (V3 m) c 1 t) (iblk1 (V3 m) c 2 t)) (iblk1 (V3 m) c 3 t) (k1_pay4 (F := Ideal)) (k1_pay4 (F := Ideal)) (k1_pay5 (F := Ideal)),
      k1_pay1 (F := Ideal) (k1_pay13 (F := Ideal) (k1_pay7 (F := Ideal) (iblk1 (V3 m) c 0 t) (iblk1 (V3 m) c 1 t) (iblk1 (V3 m) c 2 t)) (iblk1 (V3 m) c 3 t) (k1_pay4 (F := Ideal)) (k1_pay4 (F := Ideal)) (iblk1 (V3 m) c 4 t) (k1_pay6 (F := Ideal))),
      (k1_pay7 (F := Ideal) (iblk1 (V3 m) c 0 t) (iblk1 (V3 m) c 1 t) (iblk1 (V3 m) c 2 t))) := by
  unfold stA
  rw [sout1_A_0_eq, sout1_A_1_eq, sout1_A_2_eq, sout1_A_3_eq]

/-- What a middle key tile leaves over the state `p`. -/
theorem stB_eq (t : Fin cfg1.N) (h0 : ¬t.val % 4 = 0) (h1 : ¬t.val % 4 = 3) (p : St Ideal) :
    stB (V3 m) c t h0 h1 p = (VO1.read (Elt Ideal) VO1.junk,
      k1_pay2 (F := Ideal) (k1_pay9 (F := Ideal) p.2.2.2.2 (iblk1 (V3 m) c 3 t) p.2.1),
      k1_pay12 (F := Ideal) p.2.2.2.2 (iblk1 (V3 m) c 3 t) p.2.1 p.2.1 p.2.2.1,
      k1_pay1 (F := Ideal) (k1_pay13 (F := Ideal) p.2.2.2.2 (iblk1 (V3 m) c 3 t) p.2.1 p.2.1 (iblk1 (V3 m) c 4 t) p.2.2.2.1),
      p.2.2.2.2) := by
  unfold stB
  rw [sout1_B_0_eq, sout1_B_1_eq, sout1_B_2_eq]

/-- What a last key tile leaves over the state `p`. -/
theorem stC_eq (t : Fin cfg1.N) (h0 : ¬t.val % 4 = 0) (h1 : t.val % 4 = 3) (p : St Ideal) :
    stC (V3 m) c t h0 h1 p = (k1_pay3 (F := Ideal) (k1_pay12 (F := Ideal) p.2.2.2.2 (iblk1 (V3 m) c 3 t) p.2.1 p.2.1 p.2.2.1)
        (k1_pay1 (F := Ideal) (k1_pay13 (F := Ideal) p.2.2.2.2 (iblk1 (V3 m) c 3 t) p.2.1 p.2.1 (iblk1 (V3 m) c 4 t) p.2.2.2.1)),
      k1_pay2 (F := Ideal) (k1_pay9 (F := Ideal) p.2.2.2.2 (iblk1 (V3 m) c 3 t) p.2.1),
      k1_pay12 (F := Ideal) p.2.2.2.2 (iblk1 (V3 m) c 3 t) p.2.1 p.2.1 p.2.2.1,
      k1_pay1 (F := Ideal) (k1_pay13 (F := Ideal) p.2.2.2.2 (iblk1 (V3 m) c 3 t) p.2.1 p.2.1 (iblk1 (V3 m) c 4 t) p.2.2.2.1),
      p.2.2.2.2) := by
  unfold stC
  rw [out1_C_5_eq, sout1_C_0_eq, sout1_C_1_eq, sout1_C_2_eq]

variable (hsr : ∀ i j, SS m c i j = ((sr i j : ℝ) : EReal)) (hxr : ∀ j d, at2 (argX m c) j d = ((xr j d : ℝ) : EReal))
include hsr hxr

/-- A first key tile: from the reset state, which is the state for no keys. -/
theorem inv_A (t : Fin cfg1.N) (h0 : t.val % 4 = 0) : Inv m c sr xr t.val t.isLt := by
  have h1 : ¬t.val % 4 = 3 := by omega
  obtain ⟨negr, hneg⟩ := neg_real
  unfold Inv
  rw [outsAt1_A (V3 m) c t h0 h1, stA_eq m c t h0 h1]
  refine ⟨fun r h => q_tile m c t r h, fun r => ?_, fun h3 => absurd h3 h1⟩
  have hz : pre (t.val % 4) = ∅ := by rw [h0]; exact pre_zero
  obtain ⟨mr', e1, e2, e3⟩ := step_at m c sr xr hsr hxr t (k1_pay7 (F := Ideal) (iblk1 (V3 m) c 0 t) (iblk1 (V3 m) c 1 t) (iblk1 (V3 m) c 2 t)) (k1_pay4 (F := Ideal)) (k1_pay5 (F := Ideal)) (k1_pay6 (F := Ideal)) (fun r h => q_tile m c t r h) r negr
    (by rw [pay4_apply]; exact hneg)
    (by rw [pay5_apply, hz, Finset.sum_empty, EReal.coe_zero])
    (fun d => by rw [pay6_apply, hz, Finset.sum_empty, EReal.coe_zero])
  exact ⟨mr', e1, e2, e3⟩

/-- A later key tile: from what the point before left. -/
theorem inv_BC (t : Fin cfg1.N) (h0 : ¬t.val % 4 = 0)
    (ih : Inv m c sr xr (t.val - 1) (Nat.lt_of_le_of_lt (Nat.sub_le _ _) t.isLt)) : Inv m c sr xr t.val t.isLt := by
  have hN : t.val < 64 := lt_of_lt_of_eq t.isLt (show cfg1.N = 64 from N_1)
  obtain ⟨ihq, ihs, -⟩ := ih
  -- the point before is in the same query tile, one key tile earlier
  have hrow : ∀ r : Fin 512, rowIdx (t.val - 1) (Nat.lt_of_le_of_lt (Nat.sub_le _ _) t.isLt) r = rowIdx t.val t.isLt r := by
    intro r; apply Fin.ext; show 512 * ((t.val - 1) / 4) + r.val = 512 * (t.val / 4) + r.val; omega
  have hkv : (t.val - 1) % 4 + 1 = t.val % 4 := by omega
  have hq : ∀ r h : Fin 512, ((outsAt1 (V3 m) c (t.val - 1) (Nat.lt_of_le_of_lt (Nat.sub_le _ _) t.isLt)).2.2.2.2 : Vec Ideal S512x512 .bf16) (ix2 r h)
      = proj (at2 (argA m c)) (at2 (argWq m c)) (at1 (argBq m c)) (rowIdx t.val t.isLt r) h := by
    intro r h; rw [ihq r h, hrow r]
  have hstep : ∀ r : Fin 512, ∃ mr' : ℝ,
      k1_pay2 (F := Ideal) (k1_pay9 (F := Ideal) (outsAt1 (V3 m) c (t.val - 1) (Nat.lt_of_le_of_lt (Nat.sub_le _ _) t.isLt)).2.2.2.2 (iblk1 (V3 m) c 3 t)
          (outsAt1 (V3 m) c (t.val - 1) (Nat.lt_of_le_of_lt (Nat.sub_le _ _) t.isLt)).2.1) (ix2 r 0) = (mr' : EReal)
      ∧ k1_pay12 (F := Ideal) (outsAt1 (V3 m) c (t.val - 1) (Nat.lt_of_le_of_lt (Nat.sub_le _ _) t.isLt)).2.2.2.2 (iblk1 (V3 m) c 3 t)
          (outsAt1 (V3 m) c (t.val - 1) (Nat.lt_of_le_of_lt (Nat.sub_le _ _) t.isLt)).2.1 (outsAt1 (V3 m) c (t.val - 1) (Nat.lt_of_le_of_lt (Nat.sub_le _ _) t.isLt)).2.1
          (outsAt1 (V3 m) c (t.val - 1) (Nat.lt_of_le_of_lt (Nat.sub_le _ _) t.isLt)).2.2.1 (ix2 r 0)
          = ((∑ j ∈ pre (t.val % 4 + 1), Real.exp (sr (rowIdx t.val t.isLt r) j - mr') : ℝ) : EReal)
      ∧ ∀ d : Fin 1024, k1_pay1 (F := Ideal) (k1_pay13 (F := Ideal) (outsAt1 (V3 m) c (t.val - 1) (Nat.lt_of_le_of_lt (Nat.sub_le _ _) t.isLt)).2.2.2.2 (iblk1 (V3 m) c 3 t)
          (outsAt1 (V3 m) c (t.val - 1) (Nat.lt_of_le_of_lt (Nat.sub_le _ _) t.isLt)).2.1 (outsAt1 (V3 m) c (t.val - 1) (Nat.lt_of_le_of_lt (Nat.sub_le _ _) t.isLt)).2.1
          (iblk1 (V3 m) c 4 t) (outsAt1 (V3 m) c (t.val - 1) (Nat.lt_of_le_of_lt (Nat.sub_le _ _) t.isLt)).2.2.2.1) (ix2 r d)
          = ((∑ j ∈ pre (t.val % 4 + 1), Real.exp (sr (rowIdx t.val t.isLt r) j - mr') * xr j d : ℝ) : EReal) := by
    intro r
    obtain ⟨mr, eM, eL, eA⟩ := ihs r
    rw [hrow r, hkv] at eL
    have eA' : ∀ d : Fin 1024, ((outsAt1 (V3 m) c (t.val - 1) (Nat.lt_of_le_of_lt (Nat.sub_le _ _) t.isLt)).2.2.2.1 : Vec Ideal S512x1024 .f32) (ix2 r d)
        = ((∑ j ∈ pre (t.val % 4), Real.exp (sr (rowIdx t.val t.isLt r) j - mr) * xr j d : ℝ) : EReal) := by
      intro d; have := eA d; rw [hrow r, hkv] at this; exact this
    exact step_at m c sr xr hsr hxr t _ _ _ _ hq r mr eM eL eA'
  unfold Inv
  by_cases h1 : t.val % 4 = 3
  · rw [outsAt1_C (V3 m) c t h0 h1, stC_eq m c t h0 h1]
    refine ⟨hq, fun r => hstep r, fun _ r d => ?_⟩
    obtain ⟨mr', -, e2, e3⟩ := hstep r
    have h4 : t.val % 4 + 1 = 4 := by omega
    rw [h4] at e2 e3
    refine (out_row _ _ r d (sr (rowIdx t.val t.isLt r)) (fun j => xr j d) mr' e2 (e3 d)).trans ?_
    unfold Cert.Val.out Cert.Val.norm Cert.Val.expo Cert.Val.rowMax
    simp only [hsr, hxr]
  · rw [outsAt1_B (V3 m) c t h0 h1, stB_eq m c t h0 h1]
    exact ⟨hq, fun r => hstep r, fun h3 => absurd h3 h1⟩

/-- The invariant holds after every point. -/
theorem inv_all : ∀ (n : ℕ) (hn : n < cfg1.N), Inv m c sr xr n hn
  | 0, hn => inv_A m c sr xr hsr hxr ⟨0, hn⟩ (Nat.zero_mod _)
  | n + 1, hn => by
    by_cases h0 : (n + 1) % 4 = 0
    · exact inv_A m c sr xr hsr hxr ⟨n + 1, hn⟩ h0
    · exact inv_BC m c sr xr hsr hxr ⟨n + 1, hn⟩ h0 (inv_all n (Nat.lt_of_succ_lt hn))

end

end Cert.KernelIdeal.Fr

end
-- ==== Proof.Val.Finite.lean ====
/-
  Under the precondition every entry of every argument array is a real number: the precondition says, array by array,
  that all entries have absolute value below +∞, and an extended real whose absolute value is below +∞ is neither
  infinity.
-/
import proofs.«400922_j71734543778413_3_alg».proof.Defs
import Idealize.ShloMosaic.Lib.ReduceAll
import Idealize.ShloMosaic.Lib.ValueIdx

noncomputable section

namespace Cert.Proof.Finite

open Idealize.ShloMosaic Idealize.ShloMosaic.TcCoe Idealize.SL.Sem

/-- Every entry of an array of extended reals is a real number. -/
def IsReal {S : Shape} (a : S.Idx → EReal) : Prop := ∀ i, ∃ r : ℝ, a i = (r : EReal)

/-- The scalar shape has one index. -/
instance subsingleton_scalar_idx : Subsingleton Cert.Pre_finite_inputs.S_.Idx := ⟨fun a b => funext fun d => d.elim0⟩

/-- An extended real whose absolute value max(x, −x) is below +∞ is a real: at either infinity the absolute value
    is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The printed test on one entry: |x| < +∞, the bound being the pattern of +∞, says that x is a real. -/
theorem real_of_olt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  refine real_of_abs_lt_top x ?_
  by_contra hn
  simp [hn] at h

/-- One array: if the conjunction over all entries of the test |x| < +∞ is true, every entry is a real. -/
theorem isReal_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (e : Host.reduce IntOp.andi
          (cmpf .olt (Host.absf a) (broadcastInDim S ![] hb (constant Cert.Pre_finite_inputs.S_ .f32 0x7F800000#32)))
          (constantI Cert.Pre_finite_inputs.S_ 1 1#1) hr h0 ValueIdx.ix0 = 1#1) :
    IsReal a := by
  intro i
  have hi := Host.reduce_andi_all _ _ hr h0 ValueIdx.ix0 e i
  -- the bound, a scalar laid over the whole shape, reads the scalar at every index
  exact real_of_olt_inf (a i) hi

/-- The precondition makes all six argument arrays real. -/
theorem reals_of_pre [hP : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    IsReal (S := Cert.KernelIdeal.S8192x1024) (m ((c.tc : Thread Cert.KernelIdeal.nD Cert.KernelIdeal.τ).loc Cert.KernelIdeal.main_arg0))
    ∧ IsReal (S := Cert.KernelIdeal.S8192x1024) (m ((c.tc : Thread Cert.KernelIdeal.nD Cert.KernelIdeal.τ).loc Cert.KernelIdeal.main_arg1))
    ∧ IsReal (S := Cert.KernelIdeal.S512x1024) (m ((c.tc : Thread Cert.KernelIdeal.nD Cert.KernelIdeal.τ).loc Cert.KernelIdeal.main_arg2))
    ∧ IsReal (S := Cert.KernelIdeal.S512) (m ((c.tc : Thread Cert.KernelIdeal.nD Cert.KernelIdeal.τ).loc Cert.KernelIdeal.main_arg3))
    ∧ IsReal (S := Cert.KernelIdeal.S512x1024) (m ((c.tc : Thread Cert.KernelIdeal.nD Cert.KernelIdeal.τ).loc Cert.KernelIdeal.main_arg4))
    ∧ IsReal (S := Cert.KernelIdeal.S512) (m ((c.tc : Thread Cert.KernelIdeal.nD Cert.KernelIdeal.τ).loc Cert.KernelIdeal.main_arg5)) := by
  have h0 := congrFun (h c) ValueIdx.ix0
  dsimp only [Cert.Pre_finite_inputs.fn, Cert.Pre_finite_inputs.fn_part1, andi] at h0
  simp only [IntOp.andi_eq_one] at h0
  obtain ⟨⟨⟨⟨⟨h1, h2⟩, h3⟩, h4⟩, h5⟩, h6⟩ := h0
  exact ⟨isReal_of_all _ _ _ _ h1, isReal_of_all _ _ _ _ h2, isReal_of_all _ _ _ _ h3, isReal_of_all _ _ _ _ h4,
    isReal_of_all _ _ _ _ h5, isReal_of_all _ _ _ _ h6⟩

end Cert.Proof.Finite

end
-- ==== Proof.Val.Final.lean ====
/-
  The attention call's result array is the specified output. Only the last key tile of each query tile writes back, and
  what it writes is the output tile's buffer, whose entries the point-by-point invariant gives as the specified entries
  of rows 512·(t/4) … 512·(t/4) + 511; the sixteen row tiles cover the array. The invariant needs every score and every
  entry of X to be a real number, which they are when the six argument arrays are real: sums and products of reals.
-/
import proofs.«400922_j71734543778413_3_alg».proof.Proof.Val.Inv
import proofs.«400922_j71734543778413_3_alg».proof.Proof.Val.Finite

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.KernelIdeal.Pay Cert.Val Cert.Val.Row Cert.Proof.Finite

/-- A projection of real arrays is real. -/
theorem proj_real {n : Nat} (A : Fin n → Fin 1024 → EReal) (W : Fin 512 → Fin 1024 → EReal) (b : Fin 512 → EReal)
    (hA : ∀ i k, ∃ r : ℝ, A i k = (r : EReal)) (hW : ∀ h k, ∃ r : ℝ, W h k = (r : EReal)) (hb : ∀ h, ∃ r : ℝ, b h = (r : EReal))
    (i : Fin n) (h : Fin 512) : ∃ r : ℝ, proj A W b i h = (r : EReal) := by
  choose ar har using hA
  choose wr hwr using hW
  choose br hbr using hb
  refine ⟨(∑ k : Fin 1024, ar i k * wr h k) + br h, ?_⟩
  unfold proj
  simp only [har, hwr, hbr, ← EReal.coe_mul]
  rw [← Cert.Val.Math.coe_sum Finset.univ (fun k => ar i k * wr h k), ← EReal.coe_add]

/-- A score of real queries and keys is real. -/
theorem score_real {n n' : Nat} (Q : Fin n → Fin 512 → EReal) (K : Fin n' → Fin 512 → EReal)
    (hQ : ∀ i h, ∃ r : ℝ, Q i h = (r : EReal)) (hK : ∀ j h, ∃ r : ℝ, K j h = (r : EReal))
    (i : Fin n) (j : Fin n') : ∃ r : ℝ, score Q K i j = (r : EReal) := by
  choose qr hqr using hQ
  choose kr hkr using hK
  refine ⟨∑ h : Fin 512, qr i h * kr j h, ?_⟩
  unfold score
  simp only [hqr, hkr, ← EReal.coe_mul]
  rw [← Cert.Val.Math.coe_sum Finset.univ (fun h => qr i h * kr j h)]

section
variable (m : (ℓ : Loc nD τ sig) → Buf (Elt Ideal) ℓ) (c : Dev nD)

/-- The specified output, as an array. -/
def GR : Buf (Elt Ideal) ((cfg1.win 5).arr.view.loc (c : Thread nD τ)) :=
  fun i : S8192x1024.Idx => G (argA m c) (argX m c) (argWq m c) (argBq m c) (argWk m c) (argBk m c) i

variable (hA : IsReal (S := S8192x1024) (argA m c)) (hX : IsReal (S := S8192x1024) (argX m c))
  (hWq : IsReal (S := S512x1024) (argWq m c)) (hBq : IsReal (S := S512) (argBq m c))
  (hWk : IsReal (S := S512x1024) (argWk m c)) (hBk : IsReal (S := S512) (argBk m c))
include hA hX hWq hBq hWk hBk

/-- Every score is a real number. -/
theorem scores_real (i j : Fin 8192) : ∃ r : ℝ, SS m c i j = (r : EReal) :=
  score_real _ _
    (proj_real _ _ _ (fun i k => hA (ix2 i k)) (fun h k => hWq (ix2 h k)) (fun h => hBq (ix1 h)))
    (proj_real _ _ _ (fun i k => hX (ix2 i k)) (fun h k => hWk (ix2 h k)) (fun h => hBk (ix1 h))) i j

/-- What a last key tile writes back is its row tile of the specified output. -/
theorem flushed1_5 (t : Fin cfg1.N) (hf : (cfg1.win 5).flush t = true) :
    (dat1 (V3 m) c).flushed 5 t = ((cfg1.win 5).blk t).view.read (Elt Ideal) (GR m c) := by
  have h3 : t.val % 4 = 3 := (flush1_5 t).mp hf
  choose sr hsr using scores_real m c hA hX hWq hBq hWk hBk
  choose xr hxr using (fun (j : Fin 8192) (d : Fin 1024) => hX (ix2 j d))
  have hinv := inv_all m c sr xr hsr hxr t.val t.isLt
  have key : ((outsAt1 (V3 m) c t.val t.isLt).1 : Vec Ideal S512x1024 .f32)
      = (((cfg1.win 5).blk t).view.read (Elt Ideal) (GR m c) : Vec Ideal S512x1024 .f32) := by
    funext y
    obtain ⟨r, d, rfl⟩ : ∃ (r : Fin 512) (d : Fin 1024), y = ix2 r d := ⟨y 0, y 1, eq_ix2 y⟩
    rw [hinv.2.2 h3 r d, blk1_5_read]
    rfl
  show (cfg1.win 5).cut (grid1.coords t) ((dat1 (V3 m) c).after 5 t) = _
  rw [after1_5]
  exact key

/-- So the program's result array holds the specified output. -/
theorem result_eq : result m c = GR m c :=
  (dat1 (V3 m) c).arrAt_eq_of_cover 5 (GR m c) (fun t hf => flushed1_5 m c hA hX hWq hBq hWk hBk t hf) (cover1_5_arr c)

end

end Cert.KernelIdeal.Fr

end
-- ==== Proof.RefValue.lean ====
/-
  The reference's result is the specified function of the six arguments: its host program projects the queries and the
  keys, multiplies them into scores, shifts each row by its maximum, exponentiates, normalises by the row's sum and
  multiplies into X — read one operation at a time at an index, with the reduction to a row maximum read as a fold of
  max from −∞.
-/
import proofs.«400922_j71734543778413_3_alg».proof.Proof.Gen.ReferenceIdeal.Run
import proofs.«400922_j71734543778413_3_alg».proof.Proof.Gen.ReferenceIdeal.Read
import proofs.«400922_j71734543778413_3_alg».proof.Proof.Val.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

section Stages

variable (x0 x1 : (⟨S8192x1024, .f32⟩ : BufTy).Contents (Elt Ideal)) (x2 : (⟨S512x1024, .f32⟩ : BufTy).Contents (Elt Ideal))
  (x3 : (⟨S512, .f32⟩ : BufTy).Contents (Elt Ideal)) (x4 : (⟨S512x1024, .f32⟩ : BufTy).Contents (Elt Ideal))
  (x5 : (⟨S512, .f32⟩ : BufTy).Contents (Elt Ideal))

/-- The projected queries at (i, h): row i of A against row h of Wq (the transposed weight read back), plus bq h. -/
theorem v4_at (i : Fin 8192) (h : Fin 512) :
    val_main_v4 (F := Ideal) x0 x2 x3 (ix2 i h) = Cert.Val.proj (Cert.Val.at2 x0) (Cert.Val.at2 x2) (Cert.Val.at1 x3) i h := by
  have e1 : ∀ k : Fin 1024, lidx_main_v1 (ix2 i h) k = ix2 i k := fun k =>
    funext fun a => Fin.ext (by match a with | ⟨0, _⟩ => rfl | ⟨1, _⟩ => rfl)
  have e2 : ∀ k : Fin 1024, idx_main_v0 (ridx_main_v1 (ix2 i h) k) = ix2 h k := fun k =>
    funext fun a => Fin.ext (by match a with | ⟨0, _⟩ => rfl | ⟨1, _⟩ => rfl)
  have e3 : idx_main_v2 (idx_main_v3 (ix2 i h)) = ix1 h :=
    funext fun a => Fin.ext (by match a with | ⟨0, _⟩ => rfl)
  rw [val_main_v4_apply, val_main_v1_apply, val_main_v3_apply, val_main_v2_apply, e3]
  simp only [val_main_v0_apply, e1, e2]
  rfl

/-- The projected keys at (j, h), likewise from X, Wk and bk. -/
theorem v9_at (j : Fin 8192) (h : Fin 512) :
    val_main_v9 (F := Ideal) x1 x4 x5 (ix2 j h) = Cert.Val.proj (Cert.Val.at2 x1) (Cert.Val.at2 x4) (Cert.Val.at1 x5) j h := by
  have e1 : ∀ k : Fin 1024, lidx_main_v6 (ix2 j h) k = ix2 j k := fun k =>
    funext fun a => Fin.ext (by match a with | ⟨0, _⟩ => rfl | ⟨1, _⟩ => rfl)
  have e2 : ∀ k : Fin 1024, idx_main_v5 (ridx_main_v6 (ix2 j h) k) = ix2 h k := fun k =>
    funext fun a => Fin.ext (by match a with | ⟨0, _⟩ => rfl | ⟨1, _⟩ => rfl)
  have e3 : idx_main_v7 (idx_main_v8 (ix2 j h)) = ix1 h :=
    funext fun a => Fin.ext (by match a with | ⟨0, _⟩ => rfl)
  rw [val_main_v9_apply, val_main_v6_apply, val_main_v8_apply, val_main_v7_apply, e3]
  simp only [val_main_v5_apply, e1, e2]
  rfl

/-- The score at (i, j): query row i against key row j (the keys transposed and read back). -/
theorem v11_at (i j : Fin 8192) :
    val_main_v11 (F := Ideal) x0 x1 x2 x3 x4 x5 (ix2 i j) = Cert.Val.scores x0 x1 x2 x3 x4 x5 i j := by
  have el : ∀ k : Fin 512, lidx_main_v11 (ix2 i j) k = ix2 i k := fun k =>
    funext fun a => Fin.ext (by match a with | ⟨0, _⟩ => rfl | ⟨1, _⟩ => rfl)
  have er : ∀ k : Fin 512, idx_main_v10 (ridx_main_v11 (ix2 i j) k) = ix2 j k := fun k =>
    funext fun a => Fin.ext (by match a with | ⟨0, _⟩ => rfl | ⟨1, _⟩ => rfl)
  rw [val_main_v11_apply]
  simp only [val_main_v10_apply, el, er, v4_at, v9_at]
  rfl

/-- A row index of the score array with column k put back on the reduced axis is (i, k). -/
theorem lift_row (hr : S8192x8192.Reduces [1] S8192) (i : Fin 8192) (k : Fin (S8192x8192.size 1)) :
    hr.lift (ix1 i) k = ix2 i (⟨k.val, k.isLt⟩ : Fin 8192) := by
  funext c; apply Fin.ext
  fin_cases c <;> rfl

/-- The pattern 0xFF800000 is −∞. -/
theorem ofBits_neg_inf : (FloatOps.ofBits (F := Ideal) .f32 0xFF800000#32 : Ideal .f32) = (⊥ : EReal) := by
  show Ideal.ofBits .f32 0xFF800000#32 = ⊥
  simp [Ideal.ofBits, Ideal.ieee]

/-- The reduction of an array's rows by max from −∞ is, at row i, the fold of max from −∞ over the row's entries. -/
theorem reduce_max_row (y : (⟨S8192x8192, .f32⟩ : BufTy).Contents (Elt Ideal)) (i : Fin 8192) :
    (Host.reduce (FloatOps.maximumf (F := Ideal) (φ := .f32)) y (val_main_cst (F := Ideal)) reducesTo_S8192x8192_S8192_d1 h_S_ (ix1 i) : EReal)
      = (Finset.univ : Finset (Fin 8192)).fold max (⊥ : EReal) (fun j => y (ix2 i j)) := by
  have hr : S8192x8192.Reduces [1] S8192 := by decide
  rw [Host.reduce_eq_fold_single (FloatOps.maximumf (F := Ideal) (φ := .f32)) y _ reducesTo_S8192x8192_S8192_d1 hr h_S_, val_main_cst_apply, ofBits_neg_inf]
  have hf : (y ∘ hr.lift (ix1 i)) = fun k : Fin 8192 => y (ix2 i k) := funext fun k => congrArg y (lift_row hr i k)
  exact congrArg (fun f => Finset.fold max (⊥ : EReal) f (Finset.univ : Finset (Fin 8192))) hf

/-- The row maximum at i: −∞ joined with the fold of max from −∞ over the row of scores. -/
theorem v14_at (i : Fin 8192) :
    val_main_v14 (F := Ideal) x0 x1 x2 x3 x4 x5 (ix1 i) = Cert.Val.rowMax (Cert.Val.scores x0 x1 x2 x3 x4 x5) i := by
  rw [val_main_v14_apply, val_main_v13_apply, val_main_cst_0_apply, ofBits_neg_inf]
  unfold val_main_v12
  rw [reduce_max_row]
  simp only [v11_at]
  rfl

/-- The shifted exponential at (i, j): the row maximum, laid along the row, subtracted and exponentiated. -/
theorem v18_at (i j : Fin 8192) :
    val_main_v18 (F := Ideal) x0 x1 x2 x3 x4 x5 (ix2 i j) = Cert.Val.expo (Cert.Val.scores x0 x1 x2 x3 x4 x5) i j := by
  have e : idx_main_v15 (idx_main_v16 (ix2 i j)) = ix1 i :=
    funext fun a => Fin.ext (by match a with | ⟨0, _⟩ => rfl)
  rw [val_main_v18_apply, val_main_v17_apply, val_main_v16_apply, val_main_v15_apply, e, v11_at, v14_at]
  rfl

/-- The pattern of all zero bits is 0. -/
theorem ofBits_zero : (FloatOps.ofBits (F := Ideal) .f32 0x00000000#32 : Ideal .f32) = (0 : EReal) :=
  Ideal.ofBits_zero_f32

/-- The normaliser of row i: the sum from 0 of the row's shifted exponentials. -/
theorem v19_at (i : Fin 8192) :
    val_main_v19 (F := Ideal) x0 x1 x2 x3 x4 x5 (ix1 i) = Cert.Val.norm (Cert.Val.scores x0 x1 x2 x3 x4 x5) i := by
  have e : ∀ k : Fin 8192, idx_main_v19 (ix1 i) k = ix2 i k := fun k =>
    funext fun a => Fin.ext (by match a with | ⟨0, _⟩ => rfl | ⟨1, _⟩ => rfl)
  rw [val_main_v19_apply, val_main_cst_1_apply, ofBits_zero]
  simp only [e, v18_at]
  rfl

/-- The result at (i, d): the normalised weights of row i, the normaliser laid along the row, against column d of X. -/
theorem v23_at (i : Fin 8192) (d : Fin 1024) :
    val_main_v23 (F := Ideal) x0 x1 x2 x3 x4 x5 (ix2 i d)
      = Cert.Val.out (Cert.Val.scores x0 x1 x2 x3 x4 x5) (Cert.Val.at2 x1) i d := by
  have el : ∀ k : Fin 8192, lidx_main_v23 (ix2 i d) k = ix2 i k := fun k =>
    funext fun a => Fin.ext (by match a with | ⟨0, _⟩ => rfl | ⟨1, _⟩ => rfl)
  have er : ∀ k : Fin 8192, ridx_main_v23 (ix2 i d) k = ix2 k d := fun k =>
    funext fun a => Fin.ext (by match a with | ⟨0, _⟩ => rfl | ⟨1, _⟩ => rfl)
  have en : ∀ k : Fin 8192, idx_main_v20 (idx_main_v21 (ix2 i k)) = ix1 i := fun k =>
    funext fun a => Fin.ext (by match a with | ⟨0, _⟩ => rfl)
  rw [val_main_v23_apply]
  simp only [el, er, val_main_v22_apply, val_main_v21_apply, val_main_v20_apply, en, v18_at, v19_at]
  rfl

end Stages

/-- The reference run's result term is the specified function of the argument arrays. -/
theorem result_eq (m : (ℓ : Loc nD τ sig) → Buf (Elt Ideal) ℓ) (c : Dev nD) :
    Cert.ReferenceIdeal.Value.res_main_v23 (F := Ideal) m c
      = Cert.Val.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [Read.val_main_v23_eq]
  funext i
  obtain ⟨a, b, rfl⟩ : ∃ (a : Fin 8192) (b : Fin 1024), i = ix2 a b := ⟨i 0, i 1, eq_ix2 i⟩
  exact v23_at _ _ _ _ _ _ a b

end Cert.ReferenceIdeal.RefValue

end
-- ==== Proof.lean ====
/-
  The certificate of the fused-projection flash attention kernel against softmax(Q·Kᵀ)·X.

  The kernel program projects the keys K = X·Wkᵀ + bk in one call over four row tiles, then runs attention over a
  16 × 4 grid of (query tile, key tile): at a query tile's first key tile it projects Q = A·Wqᵀ + bq into scratch and
  resets a running row maximum (to a large finite number), a denominator and an accumulator; at every key tile it does
  one online-softmax step; at the last it stores accumulator / denominator. The reference forms Q, K, the scores Q·Kᵀ,
  the row-wise softmax and its product with X.

  Frames: each call's body is run once per control case; what the attention call's scratch holds after each point is a
  recursion on the point, and the call's invariant between points is the scratch at exactly that. The same text serves
  the word-level program and the idealized one. The reference is a host program: its run.
  Value, on the extended reals with all six inputs real: the scratch after key tile kv of a query tile holds, per row,
  a real m, ∑_{j < 2048(kv+1)} e^{S_j − m} and ∑_{j < 2048(kv+1)} e^{S_j − m}·X_j — one step rescales by e^{m − m'} and
  adds the tile's terms, since e^{m − m'}·e^{S_j − m} = e^{S_j − m'} — so the output ∑ e^{S_j − m} X_j / ∑ e^{S_k − m} is
  the softmax-weighted sum whatever real m is, in particular for the reference's shift by the true row maximum. The
  finite starting value of the maximum only ever enters as such an m. Finiteness of the inputs is what makes every
  quantity real, so that the rescaling distributes over the sums.
-/
import proofs.«400922_j71734543778413_3_alg».proof.Defs
import proofs.«400922_j71734543778413_3_alg».proof.Proof.Gen.Kernel
import proofs.«400922_j71734543778413_3_alg».proof.Proof.Gen.KernelIdeal
import proofs.«400922_j71734543778413_3_alg».proof.Proof.Gen.ReferenceIdeal
import proofs.«400922_j71734543778413_3_alg».proof.Proof.Gen.Pre_finite_inputs
import proofs.«400922_j71734543778413_3_alg».proof.Proof.Gen.ReferenceIdeal.Run
import proofs.«400922_j71734543778413_3_alg».proof.Proof.K.Main
import proofs.«400922_j71734543778413_3_alg».proof.Proof.KI.Main
import proofs.«400922_j71734543778413_3_alg».proof.Proof.Val.Final
import proofs.«400922_j71734543778413_3_alg».proof.Proof.Val.Finite
import proofs.«400922_j71734543778413_3_alg».proof.Proof.RefValue
import Idealize.ShloMosaic.Adequacy
import Idealize.ShloMosaic.Init

noncomputable section

namespace Cert.Proof

open Idealize.ShloMosaic Idealize.SL.Sem

/-- The word-level program runs and leaves its arguments unchanged. -/
theorem frame_p [Cert.Kernel.Facts] [Cert.Pre_finite_inputs.Facts] : Cert.frame_Kernel :=
  fun m ρ _ => Cert.Kernel.Fr.frame (F := Bits) m ρ

/-- So does the idealized program. -/
theorem frame_pi [Cert.KernelIdeal.Facts] [Cert.Pre_finite_inputs.Facts] : Cert.frame_KernelIdeal :=
  fun m ρ _ => Cert.KernelIdeal.Fr.frame (F := Ideal) m ρ

/-- The reference is a host program: its run, the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments both programs end with the specified output in their result arrays. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Fr.GR m c, ?_, ?_⟩
  · refine (θ_run Cert.KernelIdeal.defs _ _).mono (fun _ h c => ⟨(h c).1.trans ?_, (h c).2⟩) (Cert.KernelIdeal.Fr.run_main (F := Ideal) m ρ)
    obtain ⟨hA, hX, hWq, hBq, hWk, hBk⟩ := Cert.Proof.Finite.reals_of_pre m hpre c
    exact Cert.KernelIdeal.Fr.result_eq m c hA hX hWq hBq hWk hBk
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
